-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S256 .f32) (main_arg7 : FVec F S256x10 .f32) (main_arg8 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg7
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S40000x128 .f32) (main_arg1 : IVec S2x640000 32) (main_arg2 : IVec S40000 32) (main_arg3 : FVec F S128x256 .f32) (main_arg4 : FVec F S256 .f32) (main_arg5 : FVec F S256x256 .f32) (main_arg6 : FVec F S256 .f32) (main_arg7 : FVec F S256x10 .f32) (main_arg8 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x256 : Shape := ⟨2, ![40000, 256]⟩
abbrev S4000x128 : Shape := ⟨2, ![4000, 128]⟩
abbrev S4000x256 : Shape := ⟨2, ![4000, 256]⟩
abbrev S680000x256 : Shape := ⟨2, ![680000, 256]⟩
abbrev S1x256 : Shape := ⟨2, ![1, 256]⟩
abbrev S64 : Shape := ⟨1, ![64]⟩
abbrev S40000x1 : Shape := ⟨2, ![40000, 1]⟩
abbrev S1x64 : Shape := ⟨2, ![1, 64]⟩
abbrev S40000x64 : Shape := ⟨2, ![40000, 64]⟩
abbrev S64x256 : Shape := ⟨2, ![64, 256]⟩
abbrev S4000x64 : Shape := ⟨2, ![4000, 64]⟩
abbrev S64x4000 : Shape := ⟨2, ![64, 4000]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 15
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x256, .f32⟩
  | 4 => ⟨S256, .f32⟩
  | 5 => ⟨S256x256, .f32⟩
  | 6 => ⟨S256, .f32⟩
  | 7 => ⟨S256x10, .f32⟩
  | 8 => ⟨S10, .f32⟩
  | 9 => ⟨S40000, .i32⟩
  | 10 => ⟨S1x640000, .i32⟩
  | 11 => ⟨S640000, .i32⟩
  | 12 => ⟨S680000, .i32⟩
  | 13 => ⟨S1x640000, .i32⟩
  | 14 => ⟨S640000, .i32⟩
  | 15 => ⟨S680000, .i32⟩
  | 16 => ⟨S_, .f32⟩
  | 17 => ⟨S40000, .f32⟩
  | 18 => ⟨S_, .i32⟩
  | 19 => ⟨S680000, .i32⟩
  | 20 => ⟨S680000, .i1⟩
  | 21 => ⟨S_, .i32⟩
  | 22 => ⟨S680000, .i32⟩
  | 23 => ⟨S680000, .i32⟩
  | 24 => ⟨S680000, .i32⟩
  | 25 => ⟨S680000x1, .i32⟩
  | 26 => ⟨S_, .f32⟩
  | 27 => ⟨S680000, .f32⟩
  | 28 => ⟨S40000, .f32⟩
  | 29 => ⟨S_, .f32⟩
  | 30 => ⟨S40000, .f32⟩
  | 31 => ⟨S40000, .f32⟩
  | 32 => ⟨S40000, .f32⟩
  | 33 => ⟨S_, .i32⟩
  | 34 => ⟨S680000, .i32⟩
  | 35 => ⟨S680000, .i1⟩
  | 36 => ⟨S_, .i32⟩
  | 37 => ⟨S680000, .i32⟩
  | 38 => ⟨S680000, .i32⟩
  | 39 => ⟨S680000, .i32⟩
  | 40 => ⟨S680000x1, .i32⟩
  | 41 => ⟨S680000, .f32⟩
  | 42 => ⟨S_, .i32⟩
  | 43 => ⟨S680000, .i32⟩
  | 44 => ⟨S680000, .i1⟩
  | 45 => ⟨S_, .i32⟩
  | 46 => ⟨S680000, .i32⟩
  | 47 => ⟨S680000, .i32⟩
  | 48 => ⟨S680000, .i32⟩
  | 49 => ⟨S680000x1, .i32⟩
  | 50 => ⟨S680000, .f32⟩
  | 51 => ⟨S680000, .f32⟩
  | 52 => ⟨S40000x128, .bf16⟩
  | 53 => ⟨S128x256, .bf16⟩
  | 54 => ⟨S40000x256, .f32⟩
  | 55 => ⟨S_, .i32⟩
  | 56 => ⟨S680000, .i32⟩
  | 57 => ⟨S680000, .i1⟩
  | 58 => ⟨S_, .i32⟩
  | 59 => ⟨S680000, .i32⟩
  | 60 => ⟨S680000, .i32⟩
  | 61 => ⟨S680000, .i32⟩
  | 62 => ⟨S680000x1, .i32⟩
  | 63 => ⟨S680000x256, .f32⟩
  | 64 => ⟨S680000x1, .f32⟩
  | 65 => ⟨S680000x256, .f32⟩
  | 66 => ⟨S680000x256, .f32⟩
  | 67 => ⟨S_, .f32⟩
  | 68 => ⟨S40000x256, .f32⟩
  | 69 => ⟨S_, .i32⟩
  | 70 => ⟨S680000, .i32⟩
  | 71 => ⟨S680000, .i1⟩
  | 72 => ⟨S_, .i32⟩
  | 73 => ⟨S680000, .i32⟩
  | 74 => ⟨S680000, .i32⟩
  | 75 => ⟨S680000, .i32⟩
  | 76 => ⟨S680000x1, .i32⟩
  | 77 => ⟨S40000x256, .f32⟩
  | 78 => ⟨S1x256, .f32⟩
  | 79 => ⟨S40000x256, .f32⟩
  | 80 => ⟨S40000x256, .f32⟩
  | 81 => ⟨S_, .f32⟩
  | 82 => ⟨S40000x256, .f32⟩
  | 83 => ⟨S40000x256, .f32⟩
  | 84 => ⟨S40000x256, .bf16⟩
  | 85 => ⟨S256x256, .bf16⟩
  | 86 => ⟨S40000x256, .f32⟩
  | 87 => ⟨S_, .i32⟩
  | 88 => ⟨S680000, .i32⟩
  | 89 => ⟨S680000, .i1⟩
  | 90 => ⟨S_, .i32⟩
  | 91 => ⟨S680000, .i32⟩
  | 92 => ⟨S680000, .i32⟩
  | 93 => ⟨S680000, .i32⟩
  | 94 => ⟨S680000x1, .i32⟩
  | 95 => ⟨S680000x256, .f32⟩
  | 96 => ⟨S680000x1, .f32⟩
  | 97 => ⟨S680000x256, .f32⟩
  | 98 => ⟨S680000x256, .f32⟩
  | 99 => ⟨S_, .f32⟩
  | 100 => ⟨S40000x256, .f32⟩
  | 101 => ⟨S_, .i32⟩
  | 102 => ⟨S680000, .i32⟩
  | 103 => ⟨S680000, .i1⟩
  | 104 => ⟨S_, .i32⟩
  | 105 => ⟨S680000, .i32⟩
  | 106 => ⟨S680000, .i32⟩
  | 107 => ⟨S680000, .i32⟩
  | 108 => ⟨S680000x1, .i32⟩
  | 109 => ⟨S40000x256, .f32⟩
  | 110 => ⟨S1x256, .f32⟩
  | 111 => ⟨S40000x256, .f32⟩
  | 112 => ⟨S40000x256, .f32⟩
  | 113 => ⟨S_, .f32⟩
  | 114 => ⟨S40000x256, .f32⟩
  | 115 => ⟨S40000x256, .f32⟩
  | 116 => ⟨S64, .i32⟩
  | 117 => ⟨S40000x1, .i32⟩
  | 118 => ⟨S1x64, .i32⟩
  | 119 => ⟨S40000x64, .i32⟩
  | 120 => ⟨S40000x64, .i32⟩
  | 121 => ⟨S40000x64, .i1⟩
  | 122 => ⟨S40000x64, .bf16⟩
  | 123 => ⟨S64x256, .f32⟩
  | 124 => ⟨S40000x64, .f32⟩
  | 125 => ⟨S_, .f32⟩
  | 126 => ⟨S64, .f32⟩
  | 127 => ⟨S_, .f32⟩
  | _ => ⟨S40000x128, .f32⟩

abbrev hbmTy0_1 (i : Nat) : BufTy := match i % 128 with
  | 0 => ⟨S64, .f32⟩
  | 1 => ⟨S64, .f32⟩
  | 2 => ⟨S64x1, .f32⟩
  | 3 => ⟨S64x256, .f32⟩
  | 4 => ⟨S64x256, .f32⟩
  | 5 => ⟨S64x10, .f32⟩
  | 6 => ⟨S1x10, .f32⟩
  | 7 => ⟨S64x10, .f32⟩
  | 8 => ⟨S64x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S128x256, .bf16⟩
  | .local _ .vmem, ⟨3, _⟩ => ⟨S4000x256, .f32⟩
  | .local _ .vmem, ⟨4, _⟩ => ⟨S4000x256, .f32⟩
  | .local _ .vmem, ⟨5, _⟩ => ⟨S4000x256, .bf16⟩
  | .local _ .vmem, ⟨6, _⟩ => ⟨S4000x256, .bf16⟩
  | .local _ .vmem, ⟨7, _⟩ => ⟨S256x256, .bf16⟩
  | .local _ .vmem, ⟨8, _⟩ => ⟨S4000x256, .f32⟩
  | .local _ .vmem, ⟨9, _⟩ => ⟨S4000x256, .f32⟩
  | .local _ .vmem, ⟨10, _⟩ => ⟨S4000x64, .bf16⟩
  | .local _ .vmem, ⟨11, _⟩ => ⟨S4000x64, .bf16⟩
  | .local _ .vmem, ⟨12, _⟩ => ⟨S4000x256, .f32⟩
  | .local _ .vmem, ⟨13, _⟩ => ⟨S4000x256, .f32⟩
  | .local _ .vmem, ⟨14, _⟩ => ⟨S64x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call1_cst : Ref sig .tc := ⟨.hbm, 113, rfl⟩
abbrev main_call1_v0 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S40000 : S_.BroadcastsInDim S40000 (![] : Fin 0 → Fin S40000.rank)
  bcast_S_S680000 : S_.BroadcastsInDim S680000 (![] : Fin 0 → Fin S680000.rank)
  bcast_S680000_S680000x1_0 : S680000.BroadcastsInDim S680000x1 (![0] : Fin 1 → Fin S680000x1.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4000x256_S4000x256_0_0 : ∀ a, (![0, 0] : Fin 2 → Nat) a + S4000x256.size a ≤ S4000x256.size a
  h_S4000x256 : 0 < S4000x256.numel
  bcast_S680000x1_S680000x256_0_1 : S680000x1.BroadcastsInDim S680000x256 (![0, 1] : Fin 2 → Fin S680000x256.rank)
  bcast_S_S40000x256 : S_.BroadcastsInDim S40000x256 (![] : Fin 0 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S40000_S40000x1_0 : S40000.BroadcastsInDim S40000x1 (![0] : Fin 1 → Fin S40000x1.rank)
  bcast_S64_S1x64_1 : S64.BroadcastsInDim S1x64 (![1] : Fin 1 → Fin S1x64.rank)
  bcast_S40000x1_S40000x64_0_1 : S40000x1.BroadcastsInDim S40000x64 (![0, 1] : Fin 2 → Fin S40000x64.rank)
  bcast_S1x64_S40000x64_0_1 : S1x64.BroadcastsInDim S40000x64 (![0, 1] : Fin 2 → Fin S40000x64.rank)
  inb_S64x256_S64x256_0_0 : ∀ a, (![0, 0] : Fin 2 → Nat) a + S64x256.size a ≤ S64x256.size a
  h_S64x256 : 0 < S64x256.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  shapeCasts_S64x256_S64x256 : S64x256.ShapeCasts S64x256
  transposes_S4000x64_p1_0_S64x4000 : S4000x64.Transposes [1, 0] S64x4000
  reducesTo_S40000x64_S64_d0 : S40000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S4000x128_S128x256_S4000x256_1_0_0_1_n_n_wf : DotDims.WF S4000x128 S128x256 S4000x256 [1] [0] [0] [1] [] []
  gather_S40000x256_S680000x1_S680000x256_1_0_n_n_0_1_1256_wf : GatherDims.WF S40000x256 S680000x1 S680000x256 [1] [0] [] [0] [] 1 ![1, 256]
  scatter_S40000x256_S680000x1_S680000x256_1_0_0_1_wf : ScatterDims.WF S40000x256 S680000x1 S680000x256 [1] [0] [0] 1
  dot_S4000x256_S256x256_S4000x256_1_0_0_1_n_n_wf : DotDims.WF S4000x256 S256x256 S4000x256 [1] [0] [0] [1] [] []
  dot_S64x4000_S4000x256_S64x256_1_0_0_1_n_n_wf : DotDims.WF S64x4000 S4000x256 S64x256 [1] [0] [0] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .bf16 = 32 ∨ (Rect.block (s := S40000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S40000x256.size a
  hwx0_2 : ∀ i : grid0.Coords, EltTy.bits .f32 = 32 ∨ (Rect.block (s := S40000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S40000x256.size a
  hwx1_0 : ∀ i : grid1.Coords, EltTy.bits .bf16 = 32 ∨ (Rect.block (s := S40000x256) S4000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S40000x256.size a
  hwx1_2 : ∀ i : grid1.Coords, EltTy.bits .f32 = 32 ∨ (Rect.block (s := S40000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S40000x64.size a
  hwx2_0 : ∀ i : grid2.Coords, EltTy.bits .bf16 = 32 ∨ (Rect.block (s := S40000x64) S4000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S40000x256.size a
  hwx2_1 : ∀ i : grid2.Coords, EltTy.bits .f32 = 32 ∨ (Rect.block (s := S40000x256) S4000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S40000x256_S680000x1_S680000x256_1_0_n_n_0_1_1256 : GatherDims S40000x256 S680000x1 S680000x256 where
  offsetDims := [1]
  collapsedSliceDims := [0]
  operandBatchingDims := []
  startIndicesBatchingDims := []
  startIndexMap := [0]
  indexVectorDim := 1
  sliceSizes := ![1, 256]
  wf := gather_S40000x256_S680000x1_S680000x256_1_0_n_n_0_1_1256_wf
def scatter_S40000x256_S680000x1_S680000x256_1_0_0_1 : ScatterDims S40000x256 S680000x1 S680000x256 where
  updateWindowDims := [1]
  insertedWindowDims := [0]
  scatterDimsToOperandDims := [0]
  indexVectorDim := 1
  wf := scatter_S40000x256_S680000x1_S680000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S64x4000_S4000x256_S64x256_1_0_0_1_n_n : DotDims S64x4000 S4000x256 S64x256 where
  lhsContracting := [1]
  rhsContracting := [0]
  lhsNonContracting := [0]
  rhsNonContracting := [1]
  lhsBatch := []
  rhsBatch := []
  wf := dot_S64x4000_S4000x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v34) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v90) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S64x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x640000 : Shape := ⟨2, ![1, 640000]⟩
abbrev S640000 : Shape := ⟨1, ![640000]⟩
abbrev S680000 : Shape := ⟨1, ![680000]⟩
abbrev S40000x256 : Shape := ⟨2, ![40000, 256]⟩
abbrev S_ : Shape := ⟨0, ![]⟩
abbrev S680000x1 : Shape := ⟨2, ![680000, 1]⟩
abbrev S680000x256 : Shape := ⟨2, ![680000, 256]⟩
abbrev S1x256 : Shape := ⟨2, ![1, 256]⟩
abbrev S64x256 : Shape := ⟨2, ![64, 256]⟩
abbrev S40000x1 : Shape := ⟨2, ![40000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 168
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x256, .f32⟩
  | 4 => ⟨S256, .f32⟩
  | 5 => ⟨S256x256, .f32⟩
  | 6 => ⟨S256, .f32⟩
  | 7 => ⟨S256x10, .f32⟩
  | 8 => ⟨S10, .f32⟩
  | 9 => ⟨S40000, .i32⟩
  | 10 => ⟨S1x640000, .i32⟩
  | 11 => ⟨S640000, .i32⟩
  | 12 => ⟨S680000, .i32⟩
  | 13 => ⟨S1x640000, .i32⟩
  | 14 => ⟨S640000, .i32⟩
  | 15 => ⟨S680000, .i32⟩
  | 16 => ⟨S40000x256, .f32⟩
  | 17 => ⟨S_, .f32⟩
  | 18 => ⟨S40000, .f32⟩
  | 19 => ⟨S_, .i32⟩
  | 20 => ⟨S680000, .i32⟩
  | 21 => ⟨S680000, .i1⟩
  | 22 => ⟨S_, .i32⟩
  | 23 => ⟨S680000, .i32⟩
  | 24 => ⟨S680000, .i32⟩
  | 25 => ⟨S680000, .i32⟩
  | 26 => ⟨S680000x1, .i32⟩
  | 27 => ⟨S_, .f32⟩
  | 28 => ⟨S680000, .f32⟩
  | 29 => ⟨S40000, .f32⟩
  | 30 => ⟨S_, .f32⟩
  | 31 => ⟨S40000, .f32⟩
  | 32 => ⟨S40000, .f32⟩
  | 33 => ⟨S40000, .f32⟩
  | 34 => ⟨S_, .i32⟩
  | 35 => ⟨S680000, .i32⟩
  | 36 => ⟨S680000, .i1⟩
  | 37 => ⟨S_, .i32⟩
  | 38 => ⟨S680000, .i32⟩
  | 39 => ⟨S680000, .i32⟩
  | 40 => ⟨S680000, .i32⟩
  | 41 => ⟨S680000x1, .i32⟩
  | 42 => ⟨S680000, .f32⟩
  | 43 => ⟨S_, .i32⟩
  | 44 => ⟨S680000, .i32⟩
  | 45 => ⟨S680000, .i1⟩
  | 46 => ⟨S_, .i32⟩
  | 47 => ⟨S680000, .i32⟩
  | 48 => ⟨S680000, .i32⟩
  | 49 => ⟨S680000, .i32⟩
  | 50 => ⟨S680000x1, .i32⟩
  | 51 => ⟨S680000, .f32⟩
  | 52 => ⟨S680000, .f32⟩
  | 53 => ⟨S_, .i32⟩
  | 54 => ⟨S680000, .i32⟩
  | 55 => ⟨S680000, .i1⟩
  | 56 => ⟨S_, .i32⟩
  | 57 => ⟨S680000, .i32⟩
  | 58 => ⟨S680000, .i32⟩
  | 59 => ⟨S680000, .i32⟩
  | 60 => ⟨S680000x1, .i32⟩
  | 61 => ⟨S680000x256, .f32⟩
  | 62 => ⟨S680000x1, .f32⟩
  | 63 => ⟨S680000x256, .f32⟩
  | 64 => ⟨S680000x256, .f32⟩
  | 65 => ⟨S_, .f32⟩
  | 66 => ⟨S40000x256, .f32⟩
  | 67 => ⟨S_, .i32⟩
  | 68 => ⟨S680000, .i32⟩
  | 69 => ⟨S680000, .i1⟩
  | 70 => ⟨S_, .i32⟩
  | 71 => ⟨S680000, .i32⟩
  | 72 => ⟨S680000, .i32⟩
  | 73 => ⟨S680000, .i32⟩
  | 74 => ⟨S680000x1, .i32⟩
  | 75 => ⟨S40000x256, .f32⟩
  | 76 => ⟨S1x256, .f32⟩
  | 77 => ⟨S40000x256, .f32⟩
  | 78 => ⟨S40000x256, .f32⟩
  | 79 => ⟨S_, .f32⟩
  | 80 => ⟨S40000x256, .f32⟩
  | 81 => ⟨S40000x256, .f32⟩
  | 82 => ⟨S40000x256, .f32⟩
  | 83 => ⟨S_, .f32⟩
  | 84 => ⟨S40000, .f32⟩
  | 85 => ⟨S_, .i32⟩
  | 86 => ⟨S680000, .i32⟩
  | 87 => ⟨S680000, .i1⟩
  | 88 => ⟨S_, .i32⟩
  | 89 => ⟨S680000, .i32⟩
  | 90 => ⟨S680000, .i32⟩
  | 91 => ⟨S680000, .i32⟩
  | 92 => ⟨S680000x1, .i32⟩
  | 93 => ⟨S_, .f32⟩
  | 94 => ⟨S680000, .f32⟩
  | 95 => ⟨S40000, .f32⟩
  | 96 => ⟨S_, .f32⟩
  | 97 => ⟨S40000, .f32⟩
  | 98 => ⟨S40000, .f32⟩
  | 99 => ⟨S40000, .f32⟩
  | 100 => ⟨S_, .i32⟩
  | 101 => ⟨S680000, .i32⟩
  | 102 => ⟨S680000, .i1⟩
  | 103 => ⟨S_, .i32⟩
  | 104 => ⟨S680000, .i32⟩
  | 105 => ⟨S680000, .i32⟩
  | 106 => ⟨S680000, .i32⟩
  | 107 => ⟨S680000x1, .i32⟩
  | 108 => ⟨S680000, .f32⟩
  | 109 => ⟨S_, .i32⟩
  | 110 => ⟨S680000, .i32⟩
  | 111 => ⟨S680000, .i1⟩
  | 112 => ⟨S_, .i32⟩
  | 113 => ⟨S680000, .i32⟩
  | 114 => ⟨S680000, .i32⟩
  | 115 => ⟨S680000, .i32⟩
  | 116 => ⟨S680000x1, .i32⟩
  | 117 => ⟨S680000, .f32⟩
  | 118 => ⟨S680000, .f32⟩
  | 119 => ⟨S_, .i32⟩
  | 120 => ⟨S680000, .i32⟩
  | 121 => ⟨S680000, .i1⟩
  | 122 => ⟨S_, .i32⟩
  | 123 => ⟨S680000, .i32⟩
  | 124 => ⟨S680000, .i32⟩
  | 125 => ⟨S680000, .i32⟩
  | 126 => ⟨S680000x1, .i32⟩
  | 127 => ⟨S680000x256, .f32⟩
  | _ => ⟨S40000x128, .f32⟩

abbrev hbmTy0_1 (i : Nat) : BufTy := match i % 128 with
  | 0 => ⟨S680000x1, .f32⟩
  | 1 => ⟨S680000x256, .f32⟩
  | 2 => ⟨S680000x256, .f32⟩
  | 3 => ⟨S_, .f32⟩
  | 4 => ⟨S40000x256, .f32⟩
  | 5 => ⟨S_, .i32⟩
  | 6 => ⟨S680000, .i32⟩
  | 7 => ⟨S680000, .i1⟩
  | 8 => ⟨S_, .i32⟩
  | 9 => ⟨S680000, .i32⟩
  | 10 => ⟨S680000, .i32⟩
  | 11 => ⟨S680000, .i32⟩
  | 12 => ⟨S680000x1, .i32⟩
  | 13 => ⟨S40000x256, .f32⟩
  | 14 => ⟨S1x256, .f32⟩
  | 15 => ⟨S40000x256, .f32⟩
  | 16 => ⟨S40000x256, .f32⟩
  | 17 => ⟨S_, .f32⟩
  | 18 => ⟨S40000x256, .f32⟩
  | 19 => ⟨S40000x256, .f32⟩
  | 20 => ⟨S_, .f32⟩
  | 21 => ⟨S64x256, .f32⟩
  | 22 => ⟨S40000x1, .i32⟩
  | 23 => ⟨S64x256, .f32⟩
  | 24 => ⟨S_, .f32⟩
  | 25 => ⟨S40000, .f32⟩
  | 26 => ⟨S_, .f32⟩
  | 27 => ⟨S64, .f32⟩
  | 28 => ⟨S40000x1, .i32⟩
  | 29 => ⟨S64, .f32⟩
  | 30 => ⟨S_, .f32⟩
  | 31 => ⟨S64, .f32⟩
  | 32 => ⟨S64, .f32⟩
  | 33 => ⟨S64x1, .f32⟩
  | 34 => ⟨S64x256, .f32⟩
  | 35 => ⟨S64x256, .f32⟩
  | 36 => ⟨S64x10, .f32⟩
  | 37 => ⟨S1x10, .f32⟩
  | 38 => ⟨S64x10, .f32⟩
  | 39 => ⟨S64x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_c_18 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_19 : Ref sig .tc := ⟨.hbm, 109, rfl⟩
abbrev main_v77 : Ref sig .tc := ⟨.hbm, 110, rfl⟩
abbrev main_v78 : Ref sig .tc := ⟨.hbm, 111, rfl⟩
abbrev main_c_20 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_21 : Ref sig .tc := ⟨.hbm, 119, rfl⟩
abbrev main_v85 : Ref sig .tc := ⟨.hbm, 120, rfl⟩
abbrev main_v86 : Ref sig .tc := ⟨.hbm, 121, rfl⟩
abbrev main_c_22 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_23 : Ref sig .tc := ⟨.hbm, 131, rfl⟩
abbrev main_v95 : Ref sig .tc := ⟨.hbm, 132, rfl⟩
abbrev main_c_24 : Ref sig .tc := ⟨.hbm, 133, rfl⟩
abbrev main_v96 : Ref sig .tc := ⟨.hbm, 134, rfl⟩
abbrev main_v97 : Ref sig .tc := ⟨.hbm, 135, rfl⟩
abbrev main_c_25 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call1_cst : Ref sig .tc := ⟨.hbm, 145, rfl⟩
abbrev main_call1_v0 : Ref sig .tc := ⟨.hbm, 146, rfl⟩
abbrev main_v106 : Ref sig .tc := ⟨.hbm, 147, rfl⟩
abbrev main_cst_26 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_27 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_29 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S40000 : S_.BroadcastsInDim S40000 (![] : Fin 0 → Fin S40000.rank)
  bcast_S_S680000 : S_.BroadcastsInDim S680000 (![] : Fin 0 → Fin S680000.rank)
  bcast_S680000_S680000x1_0 : S680000.BroadcastsInDim S680000x1 (![0] : Fin 1 → Fin S680000x1.rank)
  bcast_S680000x1_S680000x256_0_1 : S680000x1.BroadcastsInDim S680000x256 (![0, 1] : Fin 2 → Fin S680000x256.rank)
  bcast_S_S40000x256 : S_.BroadcastsInDim S40000x256 (![] : Fin 0 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S64x256 : S_.BroadcastsInDim S64x256 (![] : Fin 0 → Fin S64x256.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S40000x128_S128x256_S40000x256_1_0_0_1_n_n_wf : DotDims.WF S40000x128 S128x256 S40000x256 [1] [0] [0] [1] [] []
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  gather_S40000x256_S680000x1_S680000x256_1_0_n_n_0_1_1256_wf : GatherDims.WF S40000x256 S680000x1 S680000x256 [1] [0] [] [0] [] 1 ![1, 256]
  scatter_S40000x256_S680000x1_S680000x256_1_0_0_1_wf : ScatterDims.WF S40000x256 S680000x1 S680000x256 [1] [0] [0] 1
  dot_S40000x256_S256x256_S40000x256_1_0_0_1_n_n_wf : DotDims.WF S40000x256 S256x256 S40000x256 [1] [0] [0] [1] [] []
  scatter_S64x256_S40000x1_S40000x256_1_0_0_1_wf : ScatterDims.WF S64x256 S40000x1 S40000x256 [1] [0] [0] 1
  scatter_S64_S40000x1_S40000_n_0_0_1_wf : ScatterDims.WF S64 S40000x1 S40000 [] [0] [0] 1
  dot_S64x256_S256x10_S64x10_1_0_0_1_n_n_wf : DotDims.WF S64x256 S256x10 S64x10 [1] [0] [0] [1] [] []

variable [Facts₀]

def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x256_S680000x1_S680000x256_1_0_n_n_0_1_1256 : GatherDims S40000x256 S680000x1 S680000x256 where
  offsetDims := [1]
  collapsedSliceDims := [0]
  operandBatchingDims := []
  startIndicesBatchingDims := []
  startIndexMap := [0]
  indexVectorDim := 1
  sliceSizes := ![1, 256]
  wf := gather_S40000x256_S680000x1_S680000x256_1_0_n_n_0_1_1256_wf
def scatter_S40000x256_S680000x1_S680000x256_1_0_0_1 : ScatterDims S40000x256 S680000x1 S680000x256 where
  updateWindowDims := [1]
  insertedWindowDims := [0]
  scatterDimsToOperandDims := [0]
  indexVectorDim := 1
  wf := scatter_S40000x256_S680000x1_S680000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def scatter_S64x256_S40000x1_S40000x256_1_0_0_1 : ScatterDims S64x256 S40000x1 S40000x256 where
  updateWindowDims := [1]
  insertedWindowDims := [0]
  scatterDimsToOperandDims := [0]
  indexVectorDim := 1
  wf := scatter_S64x256_S40000x1_S40000x256_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.Spec.lean ====
/-
  The three places where the tiled program and the plain one differ, as pure functions over the extended reals.

  • `mmS x w` — the product of a matrix `x : [M, K]` and a matrix `w : [K, N]`: entry `(r, q)` is the sum over
    `k` of `x (r, k) · w (k, q)`. A row block of the product only reads that block's rows of `x`.
  • `poolS b h` — the segment sum of the rows of `h : [N, D]` by the ids `b : [N]`: entry `(g, q)` is the sum of
    `h (n, q)` over the rows `n` whose id, read as a signed integer, is `g`; an id outside `[0, G)` meets no segment.
  • `cntS b` — the number of rows per segment, as an extended real.
  • `ohS b` — the one-hot encoding of the ids against `0 … G − 1`: `1` where the id IS the segment, else `0`.
    Multiplying by it selects (`0 · y = 0` and `1 · y = y` at every extended real, the infinities included), so the
    one-hot product summed over the rows is the segment sum, and the one-hot's column sums are the counts.
-/
import Idealize.ShloMosaic.PureOps.Ideal
import Idealize.ShloMosaic.Lib.ValueIdx

noncomputable section

open scoped BigOperators

namespace Cert.Spec

open Idealize.ShloMosaic Idealize.ShloMosaic.ValueIdx

/-- Rows times columns. -/
def mmS {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

theorem mmS_apply {M K N : Nat} (x : (⟨2, ![M, K]⟩ : Shape).Idx → EReal) (w : (⟨2, ![K, N]⟩ : Shape).Idx → EReal)
    (r : Fin M) (q : Fin N) : mmS x w (ix2 r q) = ∑ k : Fin K, x (ix2 r k) * w (ix2 k q) := rfl

/-- The rows of `h` summed per segment id. -/
def poolS {Nn G D : Nat} (b : (⟨1, ![Nn]⟩ : Shape).Idx → BitVec 32) (h : (⟨2, ![Nn, D]⟩ : Shape).Idx → EReal) :
    (⟨2, ![G, D]⟩ : Shape).Idx → EReal :=
  fun i => ∑ n : Fin Nn, if (b (ix1 n)).toInt = ((i 0).val : ℤ) then h (ix2 n (⟨(i 1).val, idx2_lt1 i⟩ : Fin D)) else 0

theorem poolS_apply {Nn G D : Nat} (b : (⟨1, ![Nn]⟩ : Shape).Idx → BitVec 32) (h : (⟨2, ![Nn, D]⟩ : Shape).Idx → EReal)
    (g : Fin G) (q : Fin D) :
    poolS (G := G) b h (ix2 g q) = ∑ n : Fin Nn, if (b (ix1 n)).toInt = (g.val : ℤ) then h (ix2 n q) else 0 := rfl

/-- The rows counted per segment id. -/
def cntS {Nn G : Nat} (b : (⟨1, ![Nn]⟩ : Shape).Idx → BitVec 32) : (⟨1, ![G]⟩ : Shape).Idx → EReal :=
  fun i => ∑ n : Fin Nn, if (b (ix1 n)).toInt = ((i 0).val : ℤ) then (1 : EReal) else 0

theorem cntS_apply {Nn G : Nat} (b : (⟨1, ![Nn]⟩ : Shape).Idx → BitVec 32) (g : Fin G) :
    cntS (G := G) b (ix1 g) = ∑ n : Fin Nn, if (b (ix1 n)).toInt = (g.val : ℤ) then (1 : EReal) else 0 := rfl

/-- The one-hot of the ids against the segments `0 … G − 1`. -/
def ohS {Nn G : Nat} (b : (⟨1, ![Nn]⟩ : Shape).Idx → BitVec 32) : (⟨2, ![Nn, G]⟩ : Shape).Idx → EReal :=
  fun i => if (b (ix1 (⟨(i 0).val, idx2_lt0 i⟩ : Fin Nn))).toInt = ((i 1).val : ℤ) then 1 else 0

theorem ohS_apply {Nn G : Nat} (b : (⟨1, ![Nn]⟩ : Shape).Idx → BitVec 32) (n : Fin Nn) (g : Fin G) :
    ohS (G := G) b (ix2 n g) = if (b (ix1 n)).toInt = (g.val : ℤ) then 1 else 0 := rfl

/-- A 32-bit id IS the small number `g` exactly when it reads `g` as a signed integer. -/
theorem eq_ofNat_iff_toInt (v : BitVec 32) (g : Nat) (hg : g < 2 ^ 31) : v = BitVec.ofNat 32 g ↔ v.toInt = (g : ℤ) := by
  constructor
  · rintro rfl
    rw [BitVec.toInt_eq_toNat_cond, BitVec.toNat_ofNat]
    have : g % 2 ^ 32 = g := Nat.mod_eq_of_lt (by omega)
    rw [this]
    split <;> omega
  · intro h
    apply BitVec.eq_of_toNat_eq
    rw [BitVec.toNat_ofNat]
    have : g % 2 ^ 32 = g := Nat.mod_eq_of_lt (by omega)
    rw [this]
    rw [BitVec.toInt_eq_toNat_cond] at h
    have := v.isLt
    split at h <;> omega

/-- The one-hot product summed over ALL the rows is the segment sum. -/
theorem sum_ohS_mul {Nn G D : Nat} (b : (⟨1, ![Nn]⟩ : Shape).Idx → BitVec 32) (h : (⟨2, ![Nn, D]⟩ : Shape).Idx → EReal)
    (g : Fin G) (q : Fin D) :
    ∑ n : Fin Nn, ohS (G := G) b (ix2 n g) * h (ix2 n q) = poolS (G := G) b h (ix2 g q) := by
  rw [poolS_apply]
  refine Finset.sum_congr rfl fun n _ => ?_
  rw [ohS_apply]
  split
  · exact one_mul _
  · exact zero_mul _

/-- A matrix `oh : [N, G]` transposed, times `h : [N, D]`: entry `(g, q)` is the sum over the rows `n` of
    `oh (n, g) · h (n, q)`. -/
def ohmmS {Nn G D : Nat} (oh : (⟨2, ![Nn, G]⟩ : Shape).Idx → EReal) (h : (⟨2, ![Nn, D]⟩ : Shape).Idx → EReal) :
    (⟨2, ![G, D]⟩ : Shape).Idx → EReal :=
  fun i => ∑ n : Fin Nn, oh (ix2 n (⟨(i 0).val, idx2_lt0 i⟩ : Fin G)) * h (ix2 n (⟨(i 1).val, idx2_lt1 i⟩ : Fin D))

theorem ohmmS_apply {Nn G D : Nat} (oh : (⟨2, ![Nn, G]⟩ : Shape).Idx → EReal) (h : (⟨2, ![Nn, D]⟩ : Shape).Idx → EReal)
    (g : Fin G) (q : Fin D) : ohmmS oh h (ix2 g q) = ∑ n : Fin Nn, oh (ix2 n g) * h (ix2 n q) := rfl

/-- The one-hot, transposed, times the rows IS the segment sum. -/
theorem ohmmS_ohS {Nn G D : Nat} (b : (⟨1, ![Nn]⟩ : Shape).Idx → BitVec 32) (h : (⟨2, ![Nn, D]⟩ : Shape).Idx → EReal) :
    ohmmS (ohS (G := G) b) h = poolS (G := G) b h := by
  funext i
  obtain ⟨g, q, rfl⟩ : ∃ (g : Fin G) (q : Fin D), i = ix2 g q := ⟨i 0, i 1, eq_ix2 i⟩
  rw [ohmmS_apply]
  exact sum_ohS_mul b h g q

/-- The one-hot's column sums are the counts. -/
theorem sum_ohS {Nn G : Nat} (b : (⟨1, ![Nn]⟩ : Shape).Idx → BitVec 32) (g : Fin G) :
    ∑ n : Fin Nn, ohS (G := G) b (ix2 n g) = cntS (G := G) b (ix1 g) := rfl

end Cert.Spec

end
-- ==== Proof.Chain.lean ====
/-
  The host computation both programs share, as functions: a graph convolution layer and the read-out.

  The edge list `ei : [2, E]` gives each edge a source (row 0) and a target (row 1); every node gets a self loop, so
  the id lists are the rows with `0 … N − 1` appended (`srcIds`, `dstIds`). A negative id counts from the end
  (`wrapCol`, which also makes the list a column). `dis` is `1 / sqrt(max(deg, 1))` with `deg` the number of edges
  into a node, `normE` the product of `dis` at an edge's two ends. `conv h ei b` gathers the rows of `h` at the
  sources, scales each by its edge's `normE`, adds them up at the targets, adds the bias row `b` and clamps at zero.
  `head sums cnt wl bl` divides the per-segment sums by `max(cnt, 1)`, multiplies by `wl` and adds the row `bl`.
-/
import proofs.«431211_j9079560864488_1_alg».proof.ReferenceIdeal
import Idealize.ShloMosaic.PureOps.Ideal
import proofs.«431211_j9079560864488_1_alg».proof.Proof.Spec

noncomputable section

namespace Cert.ReferenceIdeal.Chain

open Cert.ReferenceIdeal Cert.ReferenceIdeal.Facts₀ Idealize.ShloMosaic

variable [Facts]

/-- Row 0 of the edge list, then every node's own id. -/
def srcIds (ei : IVec S2x640000 32) : IVec S680000 32 :=
  concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0

/-- Row 1 of the edge list, then every node's own id. -/
def dstIds (ei : IVec S2x640000 32) : IVec S680000 32 :=
  concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0

/-- A negative id counts from the end; the list as a column. -/
def wrapCol (ids : IVec S680000 32) : IVec S680000x1 32 :=
  broadcastInDim S680000x1 ![0] bcast_S680000_S680000x1_0 (select (cmpi .slt ids (broadcastInDim S680000 ![] bcast_S_S680000 (constantI S_ 32 0#32))) (addi ids (broadcastInDim S680000 ![] bcast_S_S680000 (constantI S_ 32 40000#32))) ids)

/-- One over the square root of a node's in-degree (at least one). -/
def dis (ei : IVec S2x640000 32) : FVec Ideal S40000 .f32 :=
  Host.rsqrt (maximumf (Host.scatterAdd scatter_S40000_S680000x1_S680000_n_0_0_1 (broadcastInDim S40000 ![] bcast_S_S40000 (constant S_ .f32 0x00000000#32)) (wrapCol (dstIds ei)) (broadcastInDim S680000 ![] bcast_S_S680000 (constant S_ .f32 0x3F800000#32))) (broadcastInDim S40000 ![] bcast_S_S40000 (constant S_ .f32 0x3F800000#32)))

/-- An edge's weight: `dis` at its source times `dis` at its target. -/
def normE (ei : IVec S2x640000 32) : FVec Ideal S680000 .f32 :=
  mulf (Host.gather gather_S40000_S680000x1_S680000_n_0_n_n_0_1_1 (dis ei) (wrapCol (srcIds ei))) (Host.gather gather_S40000_S680000x1_S680000_n_0_n_n_0_1_1 (dis ei) (wrapCol (dstIds ei)))

/-- One convolution layer after its dense product `h`: weighted rows summed at the targets, plus the bias, clamped at zero. -/
def conv (h : FVec Ideal S40000x256 .f32) (ei : IVec S2x640000 32) (b : FVec Ideal S256 .f32) : FVec Ideal S40000x256 .f32 :=
  maximumf (addf (Host.scatterAdd scatter_S40000x256_S680000x1_S680000x256_1_0_0_1 (broadcastInDim S40000x256 ![] bcast_S_S40000x256 (constant S_ .f32 0x00000000#32)) (wrapCol (dstIds ei)) (mulf (Host.gather gather_S40000x256_S680000x1_S680000x256_1_0_n_n_0_1_1256 h (wrapCol (srcIds ei))) (broadcastInDim S680000x256 ![0, 1] bcast_S680000x1_S680000x256_0_1 (broadcastInDim S680000x1 ![0] bcast_S680000_S680000x1_0 (normE ei))))) (broadcastInDim S40000x256 ![0, 1] bcast_S1x256_S40000x256_0_1 (broadcastInDim S1x256 ![1] bcast_S256_S1x256_1 b))) (broadcastInDim S40000x256 ![] bcast_S_S40000x256 (constant S_ .f32 0x00000000#32))

/-- The read-out: segment means times `wl`, plus the row `bl`. -/
def head (sums : FVec Ideal S64x256 .f32) (cnt : FVec Ideal S64 .f32) (wl : FVec Ideal S256x10 .f32) (bl : FVec Ideal S10 .f32) : FVec Ideal S64x10 .f32 :=
  addf (Host.dotGeneral dot_S64x256_S256x10_S64x10_1_0_0_1_n_n none (Host.divf sums (broadcastInDim S64x256 ![0, 1] bcast_S64x1_S64x256_0_1 (broadcastInDim S64x1 ![0] bcast_S64_S64x1_0 (maximumf cnt (broadcastInDim S64 ![] bcast_S_S64 (constant S_ .f32 0x3F800000#32)))))) wl) (broadcastInDim S64x10 ![0, 1] bcast_S1x10_S64x10_0_1 (broadcastInDim S1x10 ![1] bcast_S10_S1x10_1 bl))

/-- THE COMMON VALUE: two convolution layers over the dense products, pooled per graph id, read out. -/
def G (x : FVec Ideal S40000x128 .f32) (ei : IVec S2x640000 32) (bt : IVec S40000 32) (w1 : FVec Ideal S128x256 .f32) (b1 : FVec Ideal S256 .f32)
    (w2 : FVec Ideal S256x256 .f32) (b2 : FVec Ideal S256 .f32) (wl : FVec Ideal S256x10 .f32) (bl : FVec Ideal S10 .f32) : FVec Ideal S64x10 .f32 :=
  head (Cert.Spec.poolS bt (conv (Cert.Spec.mmS (conv (Cert.Spec.mmS x w1) ei b1) w2) ei b2)) (Cert.Spec.cntS bt) wl bl

end Cert.ReferenceIdeal.Chain

end
-- ==== Proof.R0Value.lean ====
/-
  The first dense product, x · W1, computed in ten row blocks of 4000 rows: what the region leaves in its output array.
-/
import proofs.«431211_j9079560864488_1_alg».proof.Proof.Gen.KernelIdeal.Frame
import proofs.«431211_j9079560864488_1_alg».proof.Proof.Spec
import Idealize.ShloMosaic.Lib.Pipeline.Value
import Idealize.ShloMosaic.PureOps.Ideal.Laws

set_option maxRecDepth 16384

noncomputable section

namespace Cert.KernelIdeal.R0Value

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The two zero offsets, however spelt, are the zero function. -/
theorem zero_offsets : (![0, 0] : Fin 2 → Nat) = fun _ => 0 := funext fun a => by fin_cases a <;> rfl

/-! ## The block product at an entry

  The product's left operand is indexed (row, contraction), its right operand (contraction, column): on its
  non-contracted axis an operand reads the output index, on its contracted axis the contraction position. -/

theorem lhs_row (j : S4000x256.Idx) (k : dot_S4000x128_S128x256_S4000x256_1_0_0_1_n_n.contr.Idx) :
    (dot_S4000x128_S128x256_S4000x256_1_0_0_1_n_n.lhsIdx j k (0 : Fin S4000x128.rank)).val = (j (0 : Fin S4000x256.rank)).val := by
  unfold DotDims.lhsIdx
  rw [dif_neg (show ¬(0 : Fin S4000x128.rank) ∈ dot_S4000x128_S128x256_S4000x256_1_0_0_1_n_n.lhsBatch by decide),
    dif_pos (show (0 : Fin S4000x128.rank) ∈ dot_S4000x128_S128x256_S4000x256_1_0_0_1_n_n.lhsNonContracting by decide)]
  rfl

theorem lhs_contr (j : S4000x256.Idx) (k : dot_S4000x128_S128x256_S4000x256_1_0_0_1_n_n.contr.Idx) :
    (dot_S4000x128_S128x256_S4000x256_1_0_0_1_n_n.lhsIdx j k (1 : Fin S4000x128.rank)).val = (k ⟨0, by decide⟩).val :=
  dot_S4000x128_S128x256_S4000x256_1_0_0_1_n_n.lhsIdx_val_of_single (cl := (1 : Fin S4000x128.rank)) rfl j k

theorem rhs_contr (j : S4000x256.Idx) (k : dot_S4000x128_S128x256_S4000x256_1_0_0_1_n_n.contr.Idx) :
    (dot_S4000x128_S128x256_S4000x256_1_0_0_1_n_n.rhsIdx j k (0 : Fin S128x256.rank)).val = (k ⟨0, by decide⟩).val :=
  dot_S4000x128_S128x256_S4000x256_1_0_0_1_n_n.rhsIdx_val_of_single (cr := (0 : Fin S128x256.rank)) rfl j k

theorem rhs_col (j : S4000x256.Idx) (k : dot_S4000x128_S128x256_S4000x256_1_0_0_1_n_n.contr.Idx) :
    (dot_S4000x128_S128x256_S4000x256_1_0_0_1_n_n.rhsIdx j k (1 : Fin S128x256.rank)).val = (j (1 : Fin S4000x256.rank)).val := by
  unfold DotDims.rhsIdx
  rw [dif_neg (show ¬(1 : Fin S128x256.rank) ∈ dot_S4000x128_S128x256_S4000x256_1_0_0_1_n_n.rhsBatch by decide),
    dif_pos (show (1 : Fin S128x256.rank) ∈ dot_S4000x128_S128x256_S4000x256_1_0_0_1_n_n.rhsNonContracting by decide)]
  rfl

/-- Entry (p, q) of the block product into a zero accumulator: the sum over the 128 contraction positions of the
    products of the left block's row p and the right block's column q. -/
theorem block_product_apply (x0 : Vec Ideal S4000x128 .bf16) (x1 : Vec Ideal S128x256 .bf16) (p : Fin 4000) (q : Fin 256) :
    k0_pay1 (F := Ideal) x0 x1 (ix2 p q) = ∑ k : Fin 128, (x0 (ix2 p k) : EReal) * (x1 (ix2 k q) : EReal) := by
  unfold k0_pay1
  refine (Ideal.matmul_constant_zero_apply dot_S4000x128_S128x256_S4000x256_1_0_0_1_n_n none _ _ (ix2 p q)).trans ?_
  refine (Equiv.sum_comp (contrEquiv1 dot_S4000x128_S128x256_S4000x256_1_0_0_1_n_n 128 rfl rfl).symm _).symm.trans ?_
  refine Finset.sum_congr rfl fun k _ => ?_
  have ck := contrEquiv1_symm_val dot_S4000x128_S128x256_S4000x256_1_0_0_1_n_n 128 rfl rfl k
  have hl : dot_S4000x128_S128x256_S4000x256_1_0_0_1_n_n.lhsIdx (ix2 p q) ((contrEquiv1 dot_S4000x128_S128x256_S4000x256_1_0_0_1_n_n 128 rfl rfl).symm k) = ix2 p k := by
    funext a; apply Fin.ext
    match a with
    | ⟨0, _⟩ => exact lhs_row _ _
    | ⟨1, _⟩ => exact (lhs_contr _ _).trans ck
  have hr : dot_S4000x128_S128x256_S4000x256_1_0_0_1_n_n.rhsIdx (ix2 p q) ((contrEquiv1 dot_S4000x128_S128x256_S4000x256_1_0_0_1_n_n 128 rfl rfl).symm k) = ix2 k q := by
    funext a; apply Fin.ext
    match a with
    | ⟨0, _⟩ => exact (rhs_contr _ _).trans ck
    | ⟨1, _⟩ => exact rhs_col _ _
  rw [shapeCast_self, shapeCast_self, hl, hr]

/-! ## From the blocks to the array -/

/-- The printed index maps over the ten points: the rows window and the output window sit at block row `t` and block
    column 0, the weights window at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are ten points. -/
theorem point_lt (t : Fin cfg0.N) : t.val < 10 := lt_of_lt_of_eq t.isLt N_0

/-- Point `t` writes back block `t` of the whole product: entry (p, q) of its block is entry (4000 t + p, q) of the
    product of the two arrays, because its rows block is rows 4000 t … 4000 t + 3999 of the left array and its weights
    block is the whole right array. -/
theorem flushed_eq (c : Dev nD) (t : Fin cfg0.N) :
    (dat0 (F := Ideal) V c).flushed 2 t = ((cfg0.win 2).blk t).view.read (Elt Ideal) (Cert.Spec.mmS (V c main_v34 : S40000x128.Idx → EReal) (V c main_v35 : S128x256.Idx → EReal) : S40000x256.Idx → EReal) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x256) zero_offsets]
  obtain ⟨e00, e01, e10, e11, e20, e21⟩ := index_facts t
  have ht : t.val < 10 := point_lt t
  refine funext fun (j : S4000x256.Idx) => ?_
  obtain ⟨p, q, rfl⟩ : ∃ (p : Fin 4000) (q : Fin 256), j = ix2 p q := ⟨j 0, j 1, eq_ix2 j⟩
  have hrow : 4000 * t.val + p.val < 40000 := by have := p.isLt; omega
  -- where the block's entry (p, q) lies in the output array
  have hemb : ((cfg0.win 2).blk t).view.emb (ix2 p q) = ix2 (⟨4000 * t.val + p.val, hrow⟩ : Fin 40000) q := by
    funext a; apply Fin.ext
    match a with
    | ⟨0, _⟩ => show win0_2.index t (0 : Fin 2) * 4000 + 1 * p.val = 4000 * t.val + p.val; rw [e20]; omega
    | ⟨1, _⟩ => show win0_2.index t (1 : Fin 2) * 256 + 1 * q.val = q.val; rw [e21]; omega
  show k0_pay1 (F := Ideal) (iblk0 V c 0 t) (iblk0 V c 1 t) (ix2 p q)
    = Cert.Spec.mmS (V c main_v34 : S40000x128.Idx → EReal) (V c main_v35 : S128x256.Idx → EReal) (((cfg0.win 2).blk t).view.emb (ix2 p q))
  rw [hemb, Cert.Spec.mmS_apply]
  refine (block_product_apply (iblk0 V c 0 t) (iblk0 V c 1 t) p q).trans ?_
  refine Finset.sum_congr rfl fun k _ => ?_
  -- the rows block's entry (p, k) is the left array's entry (4000 t + p, k)
  have hx : (iblk0 V c 0 t (ix2 p k) : EReal) = (V c main_v34 : S40000x128.Idx → EReal) (ix2 (⟨4000 * t.val + p.val, hrow⟩ : Fin 40000) k) := by
    show (V c main_v34 : S40000x128.Idx → EReal) (((cfg0.win 0).blk t).view.emb (ix2 p k)) = _
    refine congrArg _ ?_
    funext a; apply Fin.ext
    match a with
    | ⟨0, _⟩ => show win0_0.index t (0 : Fin 2) * 4000 + 1 * p.val = 4000 * t.val + p.val; rw [e00]; omega
    | ⟨1, _⟩ => show win0_0.index t (1 : Fin 2) * 128 + 1 * k.val = k.val; rw [e01]; omega
  -- the weights block is the right array
  have hw : (iblk0 V c 1 t (ix2 k q) : EReal) = (V c main_v35 : S128x256.Idx → EReal) (ix2 k q) := by
    show (V c main_v35 : S128x256.Idx → EReal) (((cfg0.win 1).blk t).view.emb (ix2 k q)) = _
    refine congrArg _ ?_
    funext a; apply Fin.ext
    match a with
    | ⟨0, _⟩ => show win0_1.index t (0 : Fin 2) * 128 + 1 * k.val = k.val; rw [e10]; omega
    | ⟨1, _⟩ => show win0_1.index t (1 : Fin 2) * 256 + 1 * q.val = q.val; rw [e11]; omega
  rw [hx, hw]

/-- An entry of the output array is in point `t`'s block exactly when each coordinate is in the block's range. -/
theorem mem_blk (t : Fin cfg0.N) (i : S40000x256.Idx) :
    i ∈ ((cfg0.win 2).blk t).view.set
      ↔ ∀ a : Fin 2, win0_2.index t a * S4000x256.size a ≤ (i a).val ∧ (i a).val < win0_2.index t a * S4000x256.size a + S4000x256.size a := by
  show i ∈ ((View.whole main_v36).slice (win0_2.rect t)).set ↔ _
  rw [View.set_slice_whole, Rect.mem_set_unit]
  exact Iff.rfl

/-- The ten row blocks tile the output array: row `r` is in the block of point `r / 4000`, and every point writes back. -/
theorem cover (i : S40000x256.Idx) :
    ∃ t : Fin cfg0.N, (cfg0.win 2).flush t = true ∧ i ∈ ((cfg0.win 2).blk t).view.set := by
  have h0 : (i 0).val < 40000 := idx2_lt0 i
  have h1 : (i 1).val < 256 := idx2_lt1 i
  have hN : (i 0).val / 4000 < cfg0.N := lt_of_lt_of_eq (by omega : (i 0).val / 4000 < 10) N_0.symm
  obtain ⟨-, -, -, -, e20, e21⟩ := index_facts ⟨(i 0).val / 4000, hN⟩
  have e20' : win0_2.index ⟨(i 0).val / 4000, hN⟩ (0 : Fin 2) = (i 0).val / 4000 := e20
  refine ⟨⟨(i 0).val / 4000, hN⟩, flush0_2 _, ?_⟩
  rw [mem_blk]
  intro a
  match a with
  | ⟨0, _⟩ =>
    show win0_2.index ⟨(i 0).val / 4000, hN⟩ (0 : Fin 2) * 4000 ≤ (i 0).val
      ∧ (i 0).val < win0_2.index ⟨(i 0).val / 4000, hN⟩ (0 : Fin 2) * 4000 + 4000
    rw [e20']; omega
  | ⟨1, _⟩ =>
    show win0_2.index ⟨(i 0).val / 4000, hN⟩ (1 : Fin 2) * 256 ≤ (i 1).val
      ∧ (i 1).val < win0_2.index ⟨(i 0).val / 4000, hN⟩ (1 : Fin 2) * 256 + 256
    rw [e21]; omega

/-- After the ten points the output array holds the whole product of the two input arrays as the region found them. -/
theorem r0_value (c : Dev nD) :
    (dat0 (F := Ideal) V c).arrAt 2 cfg0.N
      = (Cert.Spec.mmS (V c main_v34 : S40000x128.Idx → EReal) (V c main_v35 : S128x256.Idx → EReal) : S40000x256.Idx → EReal) := by
  exact (dat0 (F := Ideal) V c).arrAt_eq_of_cover 2 (Cert.Spec.mmS (V c main_v34 : S40000x128.Idx → EReal) (V c main_v35 : S128x256.Idx → EReal) : S40000x256.Idx → EReal) (fun t _ => flushed_eq V c t) cover

end Cert.KernelIdeal.R0Value

end
-- ==== Proof.R1Value.lean ====
/-
  The second dense product, relu1 · W2, computed in ten row blocks of 4000 rows: what the region leaves in its output array.
-/
import proofs.«431211_j9079560864488_1_alg».proof.Proof.Gen.KernelIdeal.Frame
import proofs.«431211_j9079560864488_1_alg».proof.Proof.Spec
import Idealize.ShloMosaic.Lib.Pipeline.Value
import Idealize.ShloMosaic.PureOps.Ideal.Laws

set_option maxRecDepth 16384

noncomputable section

namespace Cert.KernelIdeal.R1Value

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The two zero offsets, however spelt, are the zero function. -/
theorem zero_offsets : (![0, 0] : Fin 2 → Nat) = fun _ => 0 := funext fun a => by fin_cases a <;> rfl

/-! ## The block product at an entry

  The product's left operand is indexed (row, contraction), its right operand (contraction, column): on its
  non-contracted axis an operand reads the output index, on its contracted axis the contraction position. -/

theorem lhs_row (j : S4000x256.Idx) (k : dot_S4000x256_S256x256_S4000x256_1_0_0_1_n_n.contr.Idx) :
    (dot_S4000x256_S256x256_S4000x256_1_0_0_1_n_n.lhsIdx j k (0 : Fin S4000x256.rank)).val = (j (0 : Fin S4000x256.rank)).val := by
  unfold DotDims.lhsIdx
  rw [dif_neg (show ¬(0 : Fin S4000x256.rank) ∈ dot_S4000x256_S256x256_S4000x256_1_0_0_1_n_n.lhsBatch by decide),
    dif_pos (show (0 : Fin S4000x256.rank) ∈ dot_S4000x256_S256x256_S4000x256_1_0_0_1_n_n.lhsNonContracting by decide)]
  rfl

theorem lhs_contr (j : S4000x256.Idx) (k : dot_S4000x256_S256x256_S4000x256_1_0_0_1_n_n.contr.Idx) :
    (dot_S4000x256_S256x256_S4000x256_1_0_0_1_n_n.lhsIdx j k (1 : Fin S4000x256.rank)).val = (k ⟨0, by decide⟩).val :=
  dot_S4000x256_S256x256_S4000x256_1_0_0_1_n_n.lhsIdx_val_of_single (cl := (1 : Fin S4000x256.rank)) rfl j k

theorem rhs_contr (j : S4000x256.Idx) (k : dot_S4000x256_S256x256_S4000x256_1_0_0_1_n_n.contr.Idx) :
    (dot_S4000x256_S256x256_S4000x256_1_0_0_1_n_n.rhsIdx j k (0 : Fin S256x256.rank)).val = (k ⟨0, by decide⟩).val :=
  dot_S4000x256_S256x256_S4000x256_1_0_0_1_n_n.rhsIdx_val_of_single (cr := (0 : Fin S256x256.rank)) rfl j k

theorem rhs_col (j : S4000x256.Idx) (k : dot_S4000x256_S256x256_S4000x256_1_0_0_1_n_n.contr.Idx) :
    (dot_S4000x256_S256x256_S4000x256_1_0_0_1_n_n.rhsIdx j k (1 : Fin S256x256.rank)).val = (j (1 : Fin S4000x256.rank)).val := by
  unfold DotDims.rhsIdx
  rw [dif_neg (show ¬(1 : Fin S256x256.rank) ∈ dot_S4000x256_S256x256_S4000x256_1_0_0_1_n_n.rhsBatch by decide),
    dif_pos (show (1 : Fin S256x256.rank) ∈ dot_S4000x256_S256x256_S4000x256_1_0_0_1_n_n.rhsNonContracting by decide)]
  rfl

/-- Entry (p, q) of the block product into a zero accumulator: the sum over the 256 contraction positions of the
    products of the left block's row p and the right block's column q. -/
theorem block_product_apply (x0 : Vec Ideal S4000x256 .bf16) (x1 : Vec Ideal S256x256 .bf16) (p : Fin 4000) (q : Fin 256) :
    k1_pay1 (F := Ideal) x0 x1 (ix2 p q) = ∑ k : Fin 256, (x0 (ix2 p k) : EReal) * (x1 (ix2 k q) : EReal) := by
  unfold k1_pay1
  refine (Ideal.matmul_constant_zero_apply dot_S4000x256_S256x256_S4000x256_1_0_0_1_n_n none _ _ (ix2 p q)).trans ?_
  refine (Equiv.sum_comp (contrEquiv1 dot_S4000x256_S256x256_S4000x256_1_0_0_1_n_n 256 rfl rfl).symm _).symm.trans ?_
  refine Finset.sum_congr rfl fun k _ => ?_
  have ck := contrEquiv1_symm_val dot_S4000x256_S256x256_S4000x256_1_0_0_1_n_n 256 rfl rfl k
  have hl : dot_S4000x256_S256x256_S4000x256_1_0_0_1_n_n.lhsIdx (ix2 p q) ((contrEquiv1 dot_S4000x256_S256x256_S4000x256_1_0_0_1_n_n 256 rfl rfl).symm k) = ix2 p k := by
    funext a; apply Fin.ext
    match a with
    | ⟨0, _⟩ => exact lhs_row _ _
    | ⟨1, _⟩ => exact (lhs_contr _ _).trans ck
  have hr : dot_S4000x256_S256x256_S4000x256_1_0_0_1_n_n.rhsIdx (ix2 p q) ((contrEquiv1 dot_S4000x256_S256x256_S4000x256_1_0_0_1_n_n 256 rfl rfl).symm k) = ix2 k q := by
    funext a; apply Fin.ext
    match a with
    | ⟨0, _⟩ => exact (rhs_contr _ _).trans ck
    | ⟨1, _⟩ => exact rhs_col _ _
  rw [shapeCast_self, shapeCast_self, hl, hr]

/-! ## From the blocks to the array -/

/-- The printed index maps over the ten points: the rows window and the output window sit at block row `t` and block
    column 0, the weights window at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- There are ten points. -/
theorem point_lt (t : Fin cfg1.N) : t.val < 10 := lt_of_lt_of_eq t.isLt N_1

/-- Point `t` writes back block `t` of the whole product: entry (p, q) of its block is entry (4000 t + p, q) of the
    product of the two arrays, because its rows block is rows 4000 t … 4000 t + 3999 of the left array and its weights
    block is the whole right array. -/
theorem flushed_eq (c : Dev nD) (t : Fin cfg1.N) :
    (dat1 (F := Ideal) V c).flushed 2 t = ((cfg1.win 2).blk t).view.read (Elt Ideal) (Cert.Spec.mmS (V c main_v59 : S40000x256.Idx → EReal) (V c main_v60 : S256x256.Idx → EReal) : S40000x256.Idx → EReal) := by
  show (cfg1.win 2).cut (grid1.coords t) ((dat1 V c).after 2 t) = _
  rw [after1_2]
  unfold out1_2
  rw [View.canon_unit_zero zero_offsets]
  simp only [View.ld_unit_zero (S := S4000x256) zero_offsets, View.ld_unit_zero (S := S256x256) zero_offsets]
  obtain ⟨e00, e01, e10, e11, e20, e21⟩ := index_facts t
  have ht : t.val < 10 := point_lt t
  refine funext fun (j : S4000x256.Idx) => ?_
  obtain ⟨p, q, rfl⟩ : ∃ (p : Fin 4000) (q : Fin 256), j = ix2 p q := ⟨j 0, j 1, eq_ix2 j⟩
  have hrow : 4000 * t.val + p.val < 40000 := by have := p.isLt; omega
  -- where the block's entry (p, q) lies in the output array
  have hemb : ((cfg1.win 2).blk t).view.emb (ix2 p q) = ix2 (⟨4000 * t.val + p.val, hrow⟩ : Fin 40000) q := by
    funext a; apply Fin.ext
    match a with
    | ⟨0, _⟩ => show win1_2.index t (0 : Fin 2) * 4000 + 1 * p.val = 4000 * t.val + p.val; rw [e20]; omega
    | ⟨1, _⟩ => show win1_2.index t (1 : Fin 2) * 256 + 1 * q.val = q.val; rw [e21]; omega
  show k1_pay1 (F := Ideal) (iblk1 V c 0 t) (iblk1 V c 1 t) (ix2 p q)
    = Cert.Spec.mmS (V c main_v59 : S40000x256.Idx → EReal) (V c main_v60 : S256x256.Idx → EReal) (((cfg1.win 2).blk t).view.emb (ix2 p q))
  rw [hemb, Cert.Spec.mmS_apply]
  refine (block_product_apply (iblk1 V c 0 t) (iblk1 V c 1 t) p q).trans ?_
  refine Finset.sum_congr rfl fun k _ => ?_
  -- the rows block's entry (p, k) is the left array's entry (4000 t + p, k)
  have hx : (iblk1 V c 0 t (ix2 p k) : EReal) = (V c main_v59 : S40000x256.Idx → EReal) (ix2 (⟨4000 * t.val + p.val, hrow⟩ : Fin 40000) k) := by
    show (V c main_v59 : S40000x256.Idx → EReal) (((cfg1.win 0).blk t).view.emb (ix2 p k)) = _
    refine congrArg _ ?_
    funext a; apply Fin.ext
    match a with
    | ⟨0, _⟩ => show win1_0.index t (0 : Fin 2) * 4000 + 1 * p.val = 4000 * t.val + p.val; rw [e00]; omega
    | ⟨1, _⟩ => show win1_0.index t (1 : Fin 2) * 256 + 1 * k.val = k.val; rw [e01]; omega
  -- the weights block is the right array
  have hw : (iblk1 V c 1 t (ix2 k q) : EReal) = (V c main_v60 : S256x256.Idx → EReal) (ix2 k q) := by
    show (V c main_v60 : S256x256.Idx → EReal) (((cfg1.win 1).blk t).view.emb (ix2 k q)) = _
    refine congrArg _ ?_
    funext a; apply Fin.ext
    match a with
    | ⟨0, _⟩ => show win1_1.index t (0 : Fin 2) * 256 + 1 * k.val = k.val; rw [e10]; omega
    | ⟨1, _⟩ => show win1_1.index t (1 : Fin 2) * 256 + 1 * q.val = q.val; rw [e11]; omega
  rw [hx, hw]

/-- An entry of the output array is in point `t`'s block exactly when each coordinate is in the block's range. -/
theorem mem_blk (t : Fin cfg1.N) (i : S40000x256.Idx) :
    i ∈ ((cfg1.win 2).blk t).view.set
      ↔ ∀ a : Fin 2, win1_2.index t a * S4000x256.size a ≤ (i a).val ∧ (i a).val < win1_2.index t a * S4000x256.size a + S4000x256.size a := by
  show i ∈ ((View.whole main_v61).slice (win1_2.rect t)).set ↔ _
  rw [View.set_slice_whole, Rect.mem_set_unit]
  exact Iff.rfl

/-- The ten row blocks tile the output array: row `r` is in the block of point `r / 4000`, and every point writes back. -/
theorem cover (i : S40000x256.Idx) :
    ∃ t : Fin cfg1.N, (cfg1.win 2).flush t = true ∧ i ∈ ((cfg1.win 2).blk t).view.set := by
  have h0 : (i 0).val < 40000 := idx2_lt0 i
  have h1 : (i 1).val < 256 := idx2_lt1 i
  have hN : (i 0).val / 4000 < cfg1.N := lt_of_lt_of_eq (by omega : (i 0).val / 4000 < 10) N_1.symm
  obtain ⟨-, -, -, -, e20, e21⟩ := index_facts ⟨(i 0).val / 4000, hN⟩
  have e20' : win1_2.index ⟨(i 0).val / 4000, hN⟩ (0 : Fin 2) = (i 0).val / 4000 := e20
  refine ⟨⟨(i 0).val / 4000, hN⟩, flush1_2 _, ?_⟩
  rw [mem_blk]
  intro a
  match a with
  | ⟨0, _⟩ =>
    show win1_2.index ⟨(i 0).val / 4000, hN⟩ (0 : Fin 2) * 4000 ≤ (i 0).val
      ∧ (i 0).val < win1_2.index ⟨(i 0).val / 4000, hN⟩ (0 : Fin 2) * 4000 + 4000
    rw [e20']; omega
  | ⟨1, _⟩ =>
    show win1_2.index ⟨(i 0).val / 4000, hN⟩ (1 : Fin 2) * 256 ≤ (i 1).val
      ∧ (i 1).val < win1_2.index ⟨(i 0).val / 4000, hN⟩ (1 : Fin 2) * 256 + 256
    rw [e21]; omega

/-- After the ten points the output array holds the whole product of the two input arrays as the region found them. -/
theorem r1_value (c : Dev nD) :
    (dat1 (F := Ideal) V c).arrAt 2 cfg1.N
      = (Cert.Spec.mmS (V c main_v59 : S40000x256.Idx → EReal) (V c main_v60 : S256x256.Idx → EReal) : S40000x256.Idx → EReal) := by
  exact (dat1 (F := Ideal) V c).arrAt_eq_of_cover 2 (Cert.Spec.mmS (V c main_v59 : S40000x256.Idx → EReal) (V c main_v60 : S256x256.Idx → EReal) : S40000x256.Idx → EReal) (fun t _ => flushed_eq V c t) cover

end Cert.KernelIdeal.R1Value

end
-- ==== Proof.R2Value.lean ====
/-
  The pooling region: the output block [64, 256] stays resident over the ten points; point 0 clears it, and every point
  adds its 4000 rows' share of (one-hot)ᵀ · h. After the last point the array holds the sum over all 40000 rows.

  The steps: what one point leaves in the block, as a function of the blocks it loads and of what the block held
  before; that update at an entry (g, q), the old entry plus a sum over the point's 4000 rows; the loaded blocks as
  rows 4000 t … 4000 t + 3999 of the two arrays; by induction on the point, the block after point n as the sum of the
  terms of the first 4000 (n + 1) rows (addition of extended reals is commutative and associative, so no finiteness is
  asked); and the single write-back after point 9, whose block is the whole array.
-/
import proofs.«431211_j9079560864488_1_alg».proof.Proof.Gen.KernelIdeal.Frame
import proofs.«431211_j9079560864488_1_alg».proof.Proof.Spec
import Idealize.ShloMosaic.Lib.Pipeline.Value
import Idealize.ShloMosaic.PureOps.Ideal.Laws

set_option maxRecDepth 16384

noncomputable section

namespace Cert.KernelIdeal.R2Value

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-! ## What one point leaves in the output block -/

section Pieces
variable {F : FTy → Type} [FloatOps F]

/-- A point after the first: the block holding `xo` is left at the update of `xo` by this point's two input blocks. -/
theorem out_B (c : Dev nD) (i : grid2.Coords) (a1 : Memref sig .tc .vmem S4000x64 .bf16) (h1 : a1.IsWhole)
    (a2 : Memref sig .tc .vmem S4000x256 .f32) (h2 : a2.IsWhole) (a3 : Memref sig .tc .vmem S64x256 .f32) (h3 : a3.IsWhole)
    (hc : ¬cond2_0 i) (x0 : Vec F S4000x64 .bf16) (x1 : Vec F S4000x256 .f32) (xo : Vec F S64x256 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero (S := S64x256) hz]
  simp only [View.readAt_eq_ld, h1.read_unread, h2.read_unread, h3.read_unread, View.ld_unit_zero (S := S4000x64) hz,
    View.ld_unit_zero (S := S4000x256) hz, View.ld_unit_zero (S := S64x256) hz]

/-- The first point: the block is cleared, read back, and left at the update of the cleared block. -/
theorem out_A (c : Dev nD) (i : grid2.Coords) (a1 : Memref sig .tc .vmem S4000x64 .bf16) (h1 : a1.IsWhole)
    (a2 : Memref sig .tc .vmem S4000x256 .f32) (h2 : a2.IsWhole) (a3 : Memref sig .tc .vmem S64x256 .f32) (h3 : a3.IsWhole)
    (hc : cond2_0 i) (x0 : Vec F S4000x64 .bf16) (x1 : Vec F S4000x256 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S64x256) hz, View.readCov_unit_zero (S := S64x256) _ hz]
  simp only [View.readAt_eq_ld, h1.read_unread, h2.read_unread, View.ld_unit_zero (S := S4000x64) hz,
    View.ld_unit_zero (S := S4000x256) hz]

end Pieces

/-! ## The update at an entry -/

/-- The product's dimension record: rows of the transposed one-hot block against rows of the feature block. -/
abbrev DD : DotDims S64x4000 S4000x256 S64x256 := dot_S64x4000_S4000x256_S64x256_1_0_0_1_n_n

/-- The operand indices of the product at output entry `j` and contraction position `κ`: the left operand is read at
    `(j 0, κ)`, the right one at `(κ, j 1)`. -/
theorem lhs_DD_0 (j : S64x256.Idx) (κ : DD.contr.Idx) : (DD.lhsIdx j κ 0).val = (j 0).val := rfl
theorem lhs_DD_1 (j : S64x256.Idx) (κ : DD.contr.Idx) : (DD.lhsIdx j κ 1).val = (κ ⟨0, by decide⟩).val :=
  DD.lhsIdx_val_of_single (cl := 1) rfl j κ
theorem rhs_DD_0 (j : S64x256.Idx) (κ : DD.contr.Idx) : (DD.rhsIdx j κ 0).val = (κ ⟨0, by decide⟩).val :=
  DD.rhsIdx_val_of_single (cr := 0) rfl j κ
theorem rhs_DD_1 (j : S64x256.Idx) (κ : DD.contr.Idx) : (DD.rhsIdx j κ 1).val = (j 1).val := rfl

/-- The cleared block is zero everywhere. -/
theorem pay1_apply (g : Fin 64) (q : Fin 256) : (k2_pay1 (F := Ideal) : S64x256.Idx → EReal) (ix2 g q) = 0 := by
  unfold k2_pay1
  exact Ideal.ofBits_zero_f32

/-- Entry `(g, q)` of the update: the old entry plus the sum over the block's 4000 rows `k` of
    (one-hot block)(k, g) · (feature block)(k, q). -/
theorem pay2_apply (x0 : S4000x64.Idx → EReal) (x1 : S4000x256.Idx → EReal) (xo : S64x256.Idx → EReal) (g : Fin 64) (q : Fin 256) :
    (k2_pay2 (F := Ideal) x0 x1 xo : S64x256.Idx → EReal) (ix2 g q)
      = xo (ix2 g q) + ∑ k : Fin 4000, x0 (ix2 k g) * x1 (ix2 k q) := by
  unfold k2_pay2
  simp only [shapeCast_self]
  refine congrArg (xo (ix2 g q) + ·) ?_
  refine (Ideal.matmul_constant_zero_apply DD none _ _ (ix2 g q)).trans ?_
  rw [← Equiv.sum_comp (contrEquiv1 DD 4000 rfl rfl).symm]
  refine Finset.sum_congr rfl fun k _ => ?_
  refine congrArg₂ (· * ·) ?_ ?_
  · refine transpose_apply _ _ _ _ (ix2 k g) fun b => ?_
    match b with
    | ⟨0, _⟩ => exact (show g.val = _ from (lhs_DD_0 (ix2 g q) _).symm)
    | ⟨1, _⟩ => exact (show k.val = _ from ((lhs_DD_1 (ix2 g q) _).trans (contrEquiv1_symm_val DD 4000 rfl rfl k)).symm)
  · show x1 (DD.rhsIdx (ix2 g q) ((contrEquiv1 DD 4000 rfl rfl).symm k)) = x1 (ix2 k q)
    refine congrArg x1 (Shape.idx_ext₂ ?_ ?_)
    · exact (rhs_DD_0 _ _).trans (contrEquiv1_symm_val DD 4000 rfl rfl k)
    · exact rhs_DD_1 _ _

/-! ## The blocks a point loads, as rows of the two arrays -/

/-- The one-hot array and the feature array as the region finds them, and the blocks point `t` loads of them. -/
abbrev oharr (c : Dev nD) : S40000x64.Idx → EReal := V c main_v90
abbrev harr (c : Dev nD) : S40000x256.Idx → EReal := V c main_v83
abbrev ohblk (c : Dev nD) (t : Fin cfg2.N) : S4000x64.Idx → EReal := iblk2 V c 0 t
abbrev hblk (c : Dev nD) (t : Fin cfg2.N) : S4000x256.Idx → EReal := iblk2 V c 1 t

/-- Point `t` loads block `(t, 0)` of both inputs, and every point's output block is block `(0, 0)`. -/
theorem idx_in0 : ∀ t : Fin cfg2.N, win2_0.index t 0 = t.val ∧ win2_0.index t 1 = 0 :=
  (by decide +kernel : ∀ t : Fin grid2.N, _)
theorem idx_in1 : ∀ t : Fin cfg2.N, win2_1.index t 0 = t.val ∧ win2_1.index t 1 = 0 :=
  (by decide +kernel : ∀ t : Fin grid2.N, _)
theorem idx_out : ∀ t : Fin cfg2.N, win2_2.index t 0 = 0 ∧ win2_2.index t 1 = 0 :=
  (by decide +kernel : ∀ t : Fin grid2.N, _)

theorem row_lt (t : Fin cfg2.N) (k : Fin 4000) : 4000 * t.val + k.val < 40000 := by
  have hN : t.val < 10 := lt_of_lt_of_eq t.isLt (show cfg2.N = 10 from N_2)
  have := k.isLt
  omega

/-- Row `k` of the one-hot block at point `t` is row `4000 t + k` of the array. -/
theorem ohblk_apply (c : Dev nD) (t : Fin cfg2.N) (k : Fin 4000) (g : Fin 64) :
    ohblk V c t (ix2 k g) = oharr V c (ix2 (⟨4000 * t.val + k.val, row_lt t k⟩ : Fin 40000) g) := by
  have hi := idx_in0 t
  unfold ohblk oharr iblk2
  rw [View.read_apply]
  show V c main_v90 _ = V c main_v90 _
  refine congrArg (V c main_v90) (funext fun a => Fin.ext ?_)
  match a with
  | ⟨0, _⟩ => show win2_0.index t 0 * 4000 + 1 * k.val = 4000 * t.val + k.val; rw [hi.1]; omega
  | ⟨1, _⟩ => show win2_0.index t 1 * 64 + 1 * g.val = g.val; rw [hi.2]; omega

/-- Row `k` of the feature block at point `t` is row `4000 t + k` of the array. -/
theorem hblk_apply (c : Dev nD) (t : Fin cfg2.N) (k : Fin 4000) (q : Fin 256) :
    hblk V c t (ix2 k q) = harr V c (ix2 (⟨4000 * t.val + k.val, row_lt t k⟩ : Fin 40000) q) := by
  have hi := idx_in1 t
  unfold hblk harr iblk2
  rw [View.read_apply]
  show V c main_v83 _ = V c main_v83 _
  refine congrArg (V c main_v83) (funext fun a => Fin.ext ?_)
  match a with
  | ⟨0, _⟩ => show win2_1.index t 0 * 4000 + 1 * k.val = 4000 * t.val + k.val; rw [hi.1]; omega
  | ⟨1, _⟩ => show win2_1.index t 1 * 256 + 1 * q.val = q.val; rw [hi.2]; omega

/-! ## The running sum over the rows -/

/-- Row `r`'s term of entry `(g, q)`; nothing past the last row. -/
def term (c : Dev nD) (g : Fin 64) (q : Fin 256) (r : ℕ) : EReal :=
  if h : r < 40000 then oharr V c (ix2 (⟨r, h⟩ : Fin 40000) g) * harr V c (ix2 (⟨r, h⟩ : Fin 40000) q) else 0

/-- A point's product at entry `(g, q)` is the sum of the terms of its 4000 rows. -/
theorem blk_sum (c : Dev nD) (t : Fin cfg2.N) (g : Fin 64) (q : Fin 256) :
    ∑ k : Fin 4000, ohblk V c t (ix2 k g) * hblk V c t (ix2 k q)
      = ∑ k ∈ Finset.range 4000, term V c g q (4000 * t.val + k) := by
  rw [Finset.sum_range]
  refine Finset.sum_congr rfl fun k _ => ?_
  rw [ohblk_apply, hblk_apply]
  unfold term
  rw [dif_pos (row_lt t k)]

/-- All 40000 terms are the specification's sum. -/
theorem sum_term (c : Dev nD) (g : Fin 64) (q : Fin 256) :
    ∑ r ∈ Finset.range 40000, term V c g q r = Cert.Spec.ohmmS (oharr V c) (harr V c) (ix2 g q) := by
  rw [Cert.Spec.ohmmS_apply, Finset.sum_range]
  refine Finset.sum_congr rfl fun n _ => ?_
  unfold term
  rw [dif_pos n.isLt]

/-- After point `n` entry `(g, q)` of the output block holds the terms of the first `4000 (n + 1)` rows. -/
theorem outsAt_apply (c : Dev nD) : ∀ (n : ℕ) (h : n < cfg2.N) (g : Fin 64) (q : Fin 256),
    (outsAt2 V c n h : S64x256.Idx → EReal) (ix2 g q) = 0 + ∑ r ∈ Finset.range (4000 * (n + 1)), term V c g q r
  | 0, h, g, q => by
    rw [outsAt2_A V c ⟨0, h⟩ (Nat.zero_mod 10)]
    refine (congrFun (out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr (Nat.zero_mod 10)) (ohblk V c ⟨0, h⟩) (hblk V c ⟨0, h⟩)) (ix2 g q)).trans ?_
    rw [pay2_apply, pay1_apply, blk_sum]
    refine congrArg (0 + ·) (Finset.sum_congr rfl fun k _ => ?_)
    rw [Nat.mul_zero, Nat.zero_add]
  | n + 1, h, g, q => by
    have hN : cfg2.N = 10 := N_2
    have hB : ¬(⟨n + 1, h⟩ : Fin cfg2.N).val % 10 = 0 := by dsimp only; omega
    rw [outsAt2_B V c ⟨n + 1, h⟩ hB]
    refine (congrFun (out_B (F := Ideal) c (grid2.coords ⟨n + 1, h⟩) (ms2_0 ⟨n + 1, h⟩) (hs2_0 ⟨n + 1, h⟩) (ms2_1 ⟨n + 1, h⟩)
      (hs2_1 ⟨n + 1, h⟩) (ms2_2 ⟨n + 1, h⟩) (hs2_2 ⟨n + 1, h⟩) (fun hh => hB ((hcond2_0 ⟨n + 1, h⟩).mp hh))
      (ohblk V c ⟨n + 1, h⟩) (hblk V c ⟨n + 1, h⟩) (outsAt2 V c n (Nat.lt_of_succ_lt h))) (ix2 g q)).trans ?_
    rw [pay2_apply, blk_sum, outsAt_apply c n (Nat.lt_of_succ_lt h) g q, add_assoc, Nat.mul_succ 4000 (n + 1),
      Finset.sum_range_add]

/-! ## The array after the region -/

/-- The specification's value, as contents of the output array. -/
abbrev result (c : Dev nD) : Buf (Elt Ideal) ((c : Thread nD τ).loc main_v91) :=
  (Cert.Spec.ohmmS (oharr V c) (harr V c) : S64x256.Idx → EReal)

/-- After the last point the output block holds the specification's value: all 40000 rows are in. -/
theorem outsAt_last (c : Dev nD) (h : 9 < cfg2.N) : outsAt2 V c 9 h = result V c := by
  funext i
  obtain ⟨g, q, rfl⟩ : ∃ (g : Fin 64) (q : Fin 256), i = ix2 g q := ⟨i 0, i 1, eq_ix2 i⟩
  refine (outsAt_apply V c 9 h g q).trans ?_
  rw [zero_add]
  exact sum_term V c g q

/-- The one write-back, at the last point, writes it: the output's block is the whole array. -/
theorem flushed_eq (c : Dev nD) (t : Fin cfg2.N) (hf : (cfg2.win 2).flush t = true) :
    (dat2 (F := Ideal) V c).flushed 2 t = ((cfg2.win 2).blk t).view.read (Elt Ideal) (result V c) := by
  have hN : cfg2.N = 10 := N_2
  have h9 : t.val = 9 := by have := (flush2_2 t).mp hf; have := t.isLt; omega
  obtain ⟨n, hn⟩ := t
  obtain rfl : n = 9 := h9
  show (cfg2.win 2).cut (grid2.coords ⟨9, hn⟩) ((dat2 (F := Ideal) V c).after 2 ⟨9, hn⟩) = _
  rw [after2_2, outsAt_last]
  have hi := idx_out ⟨9, hn⟩
  have hz' : (fun a => win2_2.index ⟨9, hn⟩ a * main_v91.ty.shape.size a) = fun _ => 0 := funext fun a => by
    match a with
    | ⟨0, _⟩ => show win2_2.index ⟨9, hn⟩ 0 * 64 = 0; rw [hi.1]
    | ⟨1, _⟩ => show win2_2.index ⟨9, hn⟩ 1 * 256 = 0; rw [hi.2]
  exact (Memref.read_access_unit_zero (Elt Ideal) main_v91 hz' (fun a => by rw [congrFun hz' a]; simp) (result V c)).symm

/-- After the ten points the output array holds (input 0)ᵀ · (input 1), summed over all 40000 rows. -/
theorem r2_value (c : Dev nD) :
    (dat2 (F := Ideal) V c).arrAt 2 cfg2.N
      = (Cert.Spec.ohmmS (V c main_v90 : S40000x64.Idx → EReal) (V c main_v83 : S40000x256.Idx → EReal) : S64x256.Idx → EReal) := by
  have h9 : 9 < cfg2.N := by rw [show cfg2.N = 10 from N_2]; decide
  refine (dat2 (F := Ideal) V c).arrAt_eq_of_cover 2 (result V c) (flushed_eq V c) fun i =>
    ⟨⟨9, h9⟩, (flush2_2 ⟨9, h9⟩).mpr rfl, ?_⟩
  have hi := idx_out ⟨9, h9⟩
  show i ∈ ((View.whole main_v91).slice (win2_2.rect ⟨9, h9⟩)).set
  rw [View.set_slice_whole, Rect.mem_set_unit]
  intro a
  have h0 : (i 0 : Nat) < 64 := (i 0).isLt
  have h1 : (i 1 : Nat) < 256 := (i 1).isLt
  match a with
  | ⟨0, _⟩ =>
    show win2_2.index ⟨9, h9⟩ 0 * win2_2.size 0 ≤ (i 0 : Nat)
      ∧ (i 0 : Nat) < win2_2.index ⟨9, h9⟩ 0 * win2_2.size 0 + win2_2.xsize (grid2.coords ⟨9, h9⟩) 0
    rw [hi.1, show win2_2.xsize (grid2.coords ⟨9, h9⟩) 0 = 64 from rfl]; omega
  | ⟨1, _⟩ =>
    show win2_2.index ⟨9, h9⟩ 1 * win2_2.size 1 ≤ (i 1 : Nat)
      ∧ (i 1 : Nat) < win2_2.index ⟨9, h9⟩ 1 * win2_2.size 1 + win2_2.xsize (grid2.coords ⟨9, h9⟩) 1
    rw [hi.2, show win2_2.xsize (grid2.coords ⟨9, h9⟩) 1 = 256 from rfl]; omega

end Cert.KernelIdeal.R2Value

end
-- ==== Proof.OneHot.lean ====
/-
  The tiled program's one-hot of the graph ids against 0 … 63 (an integer comparison turned into a float), and its column sums.
-/
import proofs.«431211_j9079560864488_1_alg».proof.KernelIdeal
import proofs.«431211_j9079560864488_1_alg».proof.Proof.Spec
import Idealize.ShloMosaic.PureOps.Ideal.Laws
import Idealize.ShloMosaic.Lib.Pipeline.Value
import Idealize.ShloMosaic.Lib.IdealHost

noncomputable section

namespace Cert.KernelIdeal.OneHot

open Cert.KernelIdeal Cert.KernelIdeal.Facts₀ Idealize.ShloMosaic Idealize.ShloMosaic.ValueIdx

variable [Facts]

/-- The one-hot as the program computes it: ids as a column against 0 … 63 as a row, compared for equality, as a float. -/
def ohK (b : IVec S40000 32) : FVec Ideal S40000x64 .bf16 :=
  uitofp .bf16 (cmpi .eq (broadcastInDim S40000x64 ![0, 1] bcast_S40000x1_S40000x64_0_1 (broadcastInDim S40000x1 ![0] bcast_S40000_S40000x1_0 b)) (broadcastInDim S40000x64 ![0, 1] bcast_S1x64_S40000x64_0_1 (broadcastInDim S1x64 ![1] bcast_S64_S1x64_1 (iotaInDim S64 32 0))))

/-- The ids, written as a column and repeated along the 64 columns: entry `(n, g)` is id `n`. -/
theorem idGrid_apply (b : IVec S40000 32) (n : Fin 40000) (g : Fin 64) :
    broadcastInDim S40000x64 ![0, 1] bcast_S40000x1_S40000x64_0_1
      (broadcastInDim S40000x1 ![0] bcast_S40000_S40000x1_0 b) (ix2 n g) = b (ix1 n) := by
  refine (broadcastInDim_apply _ _ _ (ix2 n g) (ix2 n (0 : Fin 1)) fun a => ?_).trans ?_
  · match a with
    | ⟨0, _⟩ => rfl
    | ⟨1, _⟩ => rfl
  · refine broadcastInDim_apply _ _ b (ix2 n (0 : Fin 1)) (ix1 n) fun a => ?_
    match a with
    | ⟨0, _⟩ => rfl

/-- The numbers 0 … 63, written as a row and repeated down the 40000 rows: entry `(n, g)` is the word `g`. -/
theorem segGrid_apply (n : Fin 40000) (g : Fin 64) :
    broadcastInDim S40000x64 ![0, 1] bcast_S1x64_S40000x64_0_1
      (broadcastInDim S1x64 ![1] bcast_S64_S1x64_1 (iotaInDim S64 32 0)) (ix2 n g) = BitVec.ofNat 32 g.val := by
  refine (broadcastInDim_apply _ _ _ (ix2 n g) (ix2 (0 : Fin 1) g) fun a => ?_).trans ?_
  · match a with
    | ⟨0, _⟩ => rfl
    | ⟨1, _⟩ => rfl
  · refine (broadcastInDim_apply _ _ _ (ix2 (0 : Fin 1) g) (ix1 g) fun a => ?_).trans ?_
    · match a with
      | ⟨0, _⟩ => rfl
    · rfl

/-- Entry `(n, g)` of the program's one-hot: the one-bit answer to "is id `n` the word `g`", as a number. -/
theorem ohK_apply (b : IVec S40000 32) (n : Fin 40000) (g : Fin 64) :
    ohK b (ix2 n g) = (((IntOp.cmpi .eq (b (ix1 n)) (BitVec.ofNat 32 g.val)).toNat : ℝ) : EReal) := by
  rw [← idGrid_apply b n g, ← segGrid_apply n g]
  rfl

/-- It is the one-hot of the specification: 1 where the id read signed is the column, else 0. -/
theorem ohK_eq (b : IVec S40000 32) : ohK b = Cert.Spec.ohS b := by
  funext j
  obtain ⟨n, g, rfl⟩ : ∃ (n : Fin 40000) (g : Fin 64), j = ix2 n g := ⟨j 0, j 1, eq_ix2 j⟩
  rw [Cert.Spec.ohS_apply, ohK_apply]
  -- a column number is below 2 ^ 31, so "the id IS the word g" and "the id reads g signed" say the same
  have hg : g.val < 2 ^ 31 := by have := g.isLt; omega
  by_cases hb : b (ix1 n) = BitVec.ofNat 32 g.val
  · rw [if_pos ((Cert.Spec.eq_ofNat_iff_toInt _ _ hg).mp hb), hb]
    simp [IntOp.cmpi]
  · rw [if_neg (fun h => hb ((Cert.Spec.eq_ofNat_iff_toInt _ _ hg).mpr h))]
    simp [IntOp.cmpi, hb]

/-- Its column sums, taken on the host from zero, are the counts. -/
theorem cntK_eq (b : IVec S40000 32) :
    Host.reduceAdd (F := Ideal) (extf .f32 (Cert.Spec.ohS b : FVec Ideal S40000x64 .bf16) bitsLt_bf16_f32) (constant S_ .f32 0x00000000#32) reducesTo_S40000x64_S64_d0 h_S_
      = (Cert.Spec.cntS b : FVec Ideal S64 .f32) := by
  funext j
  obtain ⟨g, rfl⟩ : ∃ g : Fin 64, j = ix1 g := ⟨j 0, eq_ix1 j⟩
  have hr : S40000x64.Reduces [0] S64 := by decide
  -- column g: the zero it starts from plus the sum down the 40000 rows
  refine ((hostReduceAdd_apply _ _ _ _ _).trans
    (Ideal.hostReduceAdd_single reducesTo_S40000x64_S64_d0 hr _ _ (ix1 g))).trans ?_
  rw [constant_apply, Ideal.ofBits_zero_f32, zero_add]
  refine Eq.trans ?_ (Cert.Spec.sum_ohS b g)
  refine Finset.sum_congr rfl fun k _ => ?_
  rw [extf_apply]
  congr 1
  funext c
  refine Fin.ext ?_
  match c with
  | ⟨0, _⟩ => rfl
  | ⟨1, _⟩ => rfl

end Cert.KernelIdeal.OneHot

end
-- ==== Proof.KFold.lean ====
/-
  The tiled program's result, read back through the run: the last host stretch over the pooling region's output, the
  pooling region over the second layer, the second layer over the second dense product, and so on down to the
  argument arrays. Each dense product and the pooled sum is its region's value; everything else is the shared chain.
-/
import proofs.«431211_j9079560864488_1_alg».proof.Proof.Gen.KernelIdeal.Frame
import proofs.«431211_j9079560864488_1_alg».proof.Proof.Gen.ReferenceIdeal
import proofs.«431211_j9079560864488_1_alg».proof.Proof.Chain
import proofs.«431211_j9079560864488_1_alg».proof.Proof.Spec
import proofs.«431211_j9079560864488_1_alg».proof.Proof.R0Value
import proofs.«431211_j9079560864488_1_alg».proof.Proof.R1Value
import proofs.«431211_j9079560864488_1_alg».proof.Proof.R2Value
import proofs.«431211_j9079560864488_1_alg».proof.Proof.OneHot
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo
open Cert.ReferenceIdeal.Chain

variable (m : (ℓ : Loc nD τ sig) → Buf (Elt Ideal) ℓ) (ρ : Dev nD → PrngReg) (c : Dev nD)

/-- The argument arrays as launched, each at its literal type. -/
abbrev aX : FVec Ideal S40000x128 .f32 := m ((c.tc : Thread nD τ).loc main_arg0)
abbrev aEi : IVec S2x640000 32 := m ((c.tc : Thread nD τ).loc main_arg1)
abbrev aBt : IVec S40000 32 := m ((c.tc : Thread nD τ).loc main_arg2)
abbrev aW1 : FVec Ideal S128x256 .f32 := m ((c.tc : Thread nD τ).loc main_arg3)
abbrev aB1 : FVec Ideal S256 .f32 := m ((c.tc : Thread nD τ).loc main_arg4)
abbrev aW2 : FVec Ideal S256x256 .f32 := m ((c.tc : Thread nD τ).loc main_arg5)
abbrev aB2 : FVec Ideal S256 .f32 := m ((c.tc : Thread nD τ).loc main_arg6)
abbrev aWl : FVec Ideal S256x10 .f32 := m ((c.tc : Thread nD τ).loc main_arg7)
abbrev aBl : FVec Ideal S10 .f32 := m ((c.tc : Thread nD τ).loc main_arg8)

/-- The first layer's output and the second's, as functions of the arguments. -/
abbrev relu1 : FVec Ideal S40000x256 .f32 := conv (Cert.Spec.mmS (aX m c) (aW1 m c)) (aEi m c) (aB1 m c)
abbrev relu2 : FVec Ideal S40000x256 .f32 := conv (Cert.Spec.mmS (relu1 m c) (aW2 m c)) (aEi m c) (aB2 m c)

/-! ## Before the first region: the id lists, the edge weights, the two operands of the first product -/

theorem w1_src : W1 m ρ c (Proc.devRef .tc main_v3) = srcIds (aEi m c) := by
  show StableHlo.after hostOps0 (W0 m ρ c) (Proc.devRef .tc main_v3) = _
  simp only [hostOps0]
  after_results_simp
  rfl

theorem w1_dst : W1 m ρ c (Proc.devRef .tc main_v6) = dstIds (aEi m c) := by
  show StableHlo.after hostOps0 (W0 m ρ c) (Proc.devRef .tc main_v6) = _
  simp only [hostOps0]
  after_results_simp
  rfl

theorem w1_norm : W1 m ρ c (Proc.devRef .tc main_v33) = normE (aEi m c) := by
  show StableHlo.after hostOps0 (W0 m ρ c) (Proc.devRef .tc main_v33) = _
  simp only [hostOps0]
  after_results_simp
  rfl

theorem w1_x : W1 m ρ c (Proc.devRef .tc main_v34) = aX m c := by
  show StableHlo.after hostOps0 (W0 m ρ c) (Proc.devRef .tc main_v34) = _
  simp only [hostOps0]
  after_results_simp
  rfl

theorem w1_w : W1 m ρ c (Proc.devRef .tc main_v35) = aW1 m c := by
  show StableHlo.after hostOps0 (W0 m ρ c) (Proc.devRef .tc main_v35) = _
  simp only [hostOps0]
  after_results_simp
  rfl

theorem w1_bt : W1 m ρ c (Proc.devRef .tc main_arg2) = aBt m c := by
  show StableHlo.after hostOps0 (W0 m ρ c) (Proc.devRef .tc main_arg2) = _
  simp only [hostOps0]
  after_results_simp

theorem w1_b1 : W1 m ρ c (Proc.devRef .tc main_arg4) = aB1 m c := by
  show StableHlo.after hostOps0 (W0 m ρ c) (Proc.devRef .tc main_arg4) = _
  simp only [hostOps0]
  after_results_simp

theorem w1_w2 : W1 m ρ c (Proc.devRef .tc main_arg5) = aW2 m c := by
  show StableHlo.after hostOps0 (W0 m ρ c) (Proc.devRef .tc main_arg5) = _
  simp only [hostOps0]
  after_results_simp

theorem w1_b2 : W1 m ρ c (Proc.devRef .tc main_arg6) = aB2 m c := by
  show StableHlo.after hostOps0 (W0 m ρ c) (Proc.devRef .tc main_arg6) = _
  simp only [hostOps0]
  after_results_simp

theorem w1_wl : W1 m ρ c (Proc.devRef .tc main_arg7) = aWl m c := by
  show StableHlo.after hostOps0 (W0 m ρ c) (Proc.devRef .tc main_arg7) = _
  simp only [hostOps0]
  after_results_simp

theorem w1_bl : W1 m ρ c (Proc.devRef .tc main_arg8) = aBl m c := by
  show StableHlo.after hostOps0 (W0 m ρ c) (Proc.devRef .tc main_arg8) = _
  simp only [hostOps0]
  after_results_simp

/-! ## The first region: x · W1 -/

theorem w2_src : W2 m ρ c (Proc.devRef .tc main_v3) = srcIds (aEi m c) := (W2_of_ne m ρ c main_v3 (by decide)).trans (w1_src m ρ c)
theorem w2_dst : W2 m ρ c (Proc.devRef .tc main_v6) = dstIds (aEi m c) := (W2_of_ne m ρ c main_v6 (by decide)).trans (w1_dst m ρ c)
theorem w2_norm : W2 m ρ c (Proc.devRef .tc main_v33) = normE (aEi m c) := (W2_of_ne m ρ c main_v33 (by decide)).trans (w1_norm m ρ c)
theorem w2_bt : W2 m ρ c (Proc.devRef .tc main_arg2) = aBt m c := (W2_of_ne m ρ c main_arg2 (by decide)).trans (w1_bt m ρ c)
theorem w2_b1 : W2 m ρ c (Proc.devRef .tc main_arg4) = aB1 m c := (W2_of_ne m ρ c main_arg4 (by decide)).trans (w1_b1 m ρ c)
theorem w2_w2 : W2 m ρ c (Proc.devRef .tc main_arg5) = aW2 m c := (W2_of_ne m ρ c main_arg5 (by decide)).trans (w1_w2 m ρ c)
theorem w2_b2 : W2 m ρ c (Proc.devRef .tc main_arg6) = aB2 m c := (W2_of_ne m ρ c main_arg6 (by decide)).trans (w1_b2 m ρ c)
theorem w2_wl : W2 m ρ c (Proc.devRef .tc main_arg7) = aWl m c := (W2_of_ne m ρ c main_arg7 (by decide)).trans (w1_wl m ρ c)
theorem w2_bl : W2 m ρ c (Proc.devRef .tc main_arg8) = aBl m c := (W2_of_ne m ρ c main_arg8 (by decide)).trans (w1_bl m ρ c)

/-- The region's output array is the whole product. -/
theorem w2_h1 : W2 m ρ c (Proc.devRef .tc main_v36) = Cert.Spec.mmS (aX m c) (aW1 m c) :=
  (W2_arr m ρ c 2).trans ((R0Value.r0_value (V1 m ρ) c).trans (congrArg₂ Cert.Spec.mmS (w1_x m ρ c) (w1_w m ρ c)))

end Cert.KernelIdeal.KFold

end
-- ==== Proof.KFoldB.lean ====
/-
  The tiled program's result read back through the run, continued: the first layer and the second dense product.
-/
import proofs.«431211_j9079560864488_1_alg».proof.Proof.KFold

set_option maxRecDepth 16384
-- one declaration at a time: each reading of a stretch of host operations holds a large term while it runs
set_option Elab.async false

noncomputable section

namespace Cert.KernelIdeal.KFold

open Cert.KernelIdeal Cert.KernelIdeal.Gen
open Idealize.ShloMosaic Idealize.ShloMosaic.TcCoe Idealize.SL.Sem Idealize.ShloMosaic.StableHlo
open Cert.ReferenceIdeal.Chain

variable (m : (ℓ : Loc nD τ sig) → Buf (Elt Ideal) ℓ) (ρ : Dev nD → PrngReg) (c : Dev nD)

/-- A change of float format is the identity over the extended reals. -/
theorem truncf_ideal {s : Shape} {φ ψ : FTy} (a : FVec Ideal s φ) (h : ψ.bits < φ.bits) : (truncf ψ a h : FVec Ideal s ψ) = a := rfl

/-- One layer as the tiled program spells it — the same operations as the shared chain's `conv`, over this program's own
    dimension records, which hold the same numbers. -/
theorem conv_mirror (h : FVec Ideal S40000x256 .f32) (ei : IVec S2x640000 32) (b : FVec Ideal S256 .f32) :
    maximumf
        (addf
          (Host.scatterAdd scatter_S40000x256_S680000x1_S680000x256_1_0_0_1
            (broadcastInDim S40000x256 ![] bcast_S_S40000x256 (constant S_ .f32 0x00000000#32))
            (broadcastInDim S680000x1 ![0] bcast_S680000_S680000x1_0
              (select (cmpi .slt (dstIds ei) (broadcastInDim S680000 ![] bcast_S_S680000 (constantI S_ 32 0#32)))
                (addi (dstIds ei) (broadcastInDim S680000 ![] bcast_S_S680000 (constantI S_ 32 40000#32))) (dstIds ei)))
            (mulf
              (Host.gather gather_S40000x256_S680000x1_S680000x256_1_0_n_n_0_1_1256 h
                (broadcastInDim S680000x1 ![0] bcast_S680000_S680000x1_0
                  (select (cmpi .slt (srcIds ei) (broadcastInDim S680000 ![] bcast_S_S680000 (constantI S_ 32 0#32)))
                    (addi (srcIds ei) (broadcastInDim S680000 ![] bcast_S_S680000 (constantI S_ 32 40000#32))) (srcIds ei))))
              (broadcastInDim S680000x256 ![0, 1] bcast_S680000x1_S680000x256_0_1
                (broadcastInDim S680000x1 ![0] bcast_S680000_S680000x1_0 (normE ei)))))
          (broadcastInDim S40000x256 ![0, 1] bcast_S1x256_S40000x256_0_1 (broadcastInDim S1x256 ![1] bcast_S256_S1x256_1 b)))
        (broadcastInDim S40000x256 ![] bcast_S_S40000x256 (constant S_ .f32 0x00000000#32))
      = conv h ei b := rfl

/-! ## The first layer, and the second product's operands -/

/-- The first layer's output (the change of float format on the way into the product is the identity). -/
theorem w5_r1 : W5 m ρ c (Proc.devRef .tc main_v59) = relu1 m c := by
  show StableHlo.after hostOps1_2 (StableHlo.after hostOps1_1 (StableHlo.after hostOps1 (W2 m ρ c))) (Proc.devRef .tc main_v59) = _
  simp only [hostOps1_2, hostOps1_1, hostOps1]
  after_results_simp
  rw [w2_h1, w2_src, w2_dst, w2_norm, w2_b1]
  simp only [TRef.toBuf, TRef.ofBuf, cast_eq]
  rw [truncf_ideal]
  exact conv_mirror _ _ _

theorem w5_w2 : W5 m ρ c (Proc.devRef .tc main_v60) = aW2 m c := by
  show StableHlo.after hostOps1_2 (StableHlo.after hostOps1_1 (StableHlo.after hostOps1 (W2 m ρ c))) (Proc.devRef .tc main_v60) = _
  simp only [hostOps1_2, hostOps1_1, hostOps1]
  after_results_simp
  rw [w2_w2]
  rfl

theorem w5_src : W5 m ρ c (Proc.devRef .tc main_v3) = srcIds (aEi m c) := by
  show StableHlo.after hostOps1_2 (StableHlo.after hostOps1_1 (StableHlo.after hostOps1 (W2 m ρ c))) (Proc.devRef .tc main_v3) = _
  simp only [hostOps1_2, hostOps1_1, hostOps1]
  after_results_simp
  exact w2_src m ρ c

theorem w5_dst : W5 m ρ c (Proc.devRef .tc main_v6) = dstIds (aEi m c) := by
  show StableHlo.after hostOps1_2 (StableHlo.after hostOps1_1 (StableHlo.after hostOps1 (W2 m ρ c))) (Proc.devRef .tc main_v6) = _
  simp only [hostOps1_2, hostOps1_1, hostOps1]
  after_results_simp
  exact w2_dst m ρ c

theorem w5_norm : W5 m ρ c (Proc.devRef .tc main_v33) = normE (aEi m c) := by
  show StableHlo.after hostOps1_2 (StableHlo.after hostOps1_1 (StableHlo.after hostOps1 (W2 m ρ c))) (Proc.devRef .tc main_v33) = _
  simp only [hostOps1_2, hostOps1_1, hostOps1]
  after_results_simp
  exact w2_norm m ρ c

theorem w5_bt : W5 m ρ c (Proc.devRef .tc main_arg2) = aBt m c := by
  show StableHlo.after hostOps1_2 (StableHlo.after hostOps1_1 (StableHlo.after hostOps1 (W2 m ρ c))) (Proc.devRef .tc main_arg2) = _
  simp only [hostOps1_2, hostOps1_1, hostOps1]
  after_results_simp
  exact w2_bt m ρ c

theorem w5_b2 : W5 m ρ c (Proc.devRef .tc main_arg6) = aB2 m c := by
  show StableHlo.after hostOps1_2 (StableHlo.after hostOps1_1 (StableHlo.after hostOps1 (W2 m ρ c))) (Proc.devRef .tc main_arg6) = _
  simp only [hostOps1_2, hostOps1_1, hostOps1]
  after_results_simp
  exact w2_b2 m ρ c

theorem w5_wl : W5 m ρ c (Proc.devRef .tc main_arg7) = aWl m c := by
  show StableHlo.after hostOps1_2 (StableHlo.after hostOps1_1 (StableHlo.after hostOps1 (W2 m ρ c))) (Proc.devRef .tc main_arg7) = _
  simp only [hostOps1_2, hostOps1_1, hostOps1]
  after_results_simp
  exact w2_wl m ρ c

theorem w5_bl : W5 m ρ c (Proc.devRef .tc main_arg8) = aBl m c := by
  show StableHlo.after hostOps1_2 (StableHlo.after hostOps1_1 (StableHlo.after hostOps1 (W2 m ρ c))) (Proc.devRef .tc main_arg8) = _
  simp only [hostOps1_2, hostOps1_1, hostOps1]
  after_results_simp
  exact w2_bl m ρ c

/-! ## The second region: relu1 · W2 -/

theorem w6_src : W6 m ρ c (Proc.devRef .tc main_v3) = srcIds (aEi m c) := (W6_of_ne m ρ c main_v3 (by decide)).trans (w5_src m ρ c)
theorem w6_dst : W6 m ρ c (Proc.devRef .tc main_v6) = dstIds (aEi m c) := (W6_of_ne m ρ c main_v6 (by decide)).trans (w5_dst m ρ c)
theorem w6_norm : W6 m ρ c (Proc.devRef .tc main_v33) = normE (aEi m c) := (W6_of_ne m ρ c main_v33 (by decide)).trans (w5_norm m ρ c)
theorem w6_bt : W6 m ρ c (Proc.devRef .tc main_arg2) = aBt m c := (W6_of_ne m ρ c main_arg2 (by decide)).trans (w5_bt m ρ c)
theorem w6_b2 : W6 m ρ c (Proc.devRef .tc main_arg6) = aB2 m c := (W6_of_ne m ρ c main_arg6 (by decide)).trans (w5_b2 m ρ c)
theorem w6_wl : W6 m ρ c (Proc.devRef .tc main_arg7) = aWl m c := (W6_of_ne m ρ c main_arg7 (by decide)).trans (w5_wl m ρ c)
theorem w6_bl : W6 m ρ c (Proc.devRef .tc main_arg8) = aBl m c := (W6_of_ne m ρ c main_arg8 (by decide)).trans (w5_bl m ρ c)

/-- The region's output array is the whole product. -/
theorem w6_h2 : W6 m ρ c (Proc.devRef .tc main_v61) = Cert.Spec.mmS (relu1 m c) (aW2 m c) :=
  (W6_arr m ρ c 2).trans ((R1Value.r1_value (V5 m ρ) c).trans (congrArg₂ Cert.Spec.mmS (w5_r1 m ρ c) (w5_w2 m ρ c)))

end Cert.KernelIdeal.KFold

end
-- ==== Proof.KFoldC.lean ====
/-
  The tiled program's result read back through the run, concluded: the second layer, the pooling region, the read-out.
-/
import proofs.«431211_j9079560864488_1_alg».proof.Proof.KFoldB

set_option maxRecDepth 16384
-- one declaration at a time: each reading of a stretch of host operations holds a large term while it runs
set_option Elab.async false

noncomputable section

namespace Cert.KernelIdeal.KFold

open Cert.KernelIdeal Cert.KernelIdeal.Gen
open Idealize.ShloMosaic Idealize.ShloMosaic.TcCoe Idealize.SL.Sem Idealize.ShloMosaic.StableHlo
open Cert.ReferenceIdeal.Chain

variable (m : (ℓ : Loc nD τ sig) → Buf (Elt Ideal) ℓ) (ρ : Dev nD → PrngReg) (c : Dev nD)

/-! ## The second layer, and the one-hot of the graph ids -/

theorem w9_r2 : W9 m ρ c (Proc.devRef .tc main_v83) = relu2 m c := by
  show StableHlo.after hostOps2_2 (StableHlo.after hostOps2_1 (StableHlo.after hostOps2 (W6 m ρ c))) (Proc.devRef .tc main_v83) = _
  simp only [hostOps2_2, hostOps2_1, hostOps2]
  after_results_simp
  rw [w6_h2, w6_src, w6_dst, w6_norm, w6_b2]
  simp only [TRef.toBuf, TRef.ofBuf, cast_eq]
  exact conv_mirror _ _ _

theorem w9_oh : W9 m ρ c (Proc.devRef .tc main_v90) = OneHot.ohK (aBt m c) := by
  show StableHlo.after hostOps2_2 (StableHlo.after hostOps2_1 (StableHlo.after hostOps2 (W6 m ρ c))) (Proc.devRef .tc main_v90) = _
  simp only [hostOps2_2, hostOps2_1, hostOps2]
  after_results_simp
  rw [w6_bt]
  rfl

theorem w9_wl : W9 m ρ c (Proc.devRef .tc main_arg7) = aWl m c := by
  show StableHlo.after hostOps2_2 (StableHlo.after hostOps2_1 (StableHlo.after hostOps2 (W6 m ρ c))) (Proc.devRef .tc main_arg7) = _
  simp only [hostOps2_2, hostOps2_1, hostOps2]
  after_results_simp
  exact w6_wl m ρ c

theorem w9_bl : W9 m ρ c (Proc.devRef .tc main_arg8) = aBl m c := by
  show StableHlo.after hostOps2_2 (StableHlo.after hostOps2_1 (StableHlo.after hostOps2 (W6 m ρ c))) (Proc.devRef .tc main_arg8) = _
  simp only [hostOps2_2, hostOps2_1, hostOps2]
  after_results_simp
  exact w6_bl m ρ c

/-! ## The pooling region: (one-hot)ᵀ · relu2 -/

theorem w10_wl : W10 m ρ c (Proc.devRef .tc main_arg7) = aWl m c := (W10_of_ne m ρ c main_arg7 (by decide)).trans (w9_wl m ρ c)
theorem w10_bl : W10 m ρ c (Proc.devRef .tc main_arg8) = aBl m c := (W10_of_ne m ρ c main_arg8 (by decide)).trans (w9_bl m ρ c)

/-- The region's output array is the one-hot, transposed, times the second layer's output. -/
theorem w10_sums : W10 m ρ c (Proc.devRef .tc main_v91) = Cert.Spec.ohmmS (OneHot.ohK (aBt m c)) (relu2 m c) :=
  (W10_arr m ρ c 2).trans ((R2Value.r2_value (V9 m ρ) c).trans (congrArg₂ Cert.Spec.ohmmS (w9_oh m ρ c) (w9_r2 m ρ c)))

/-- The one-hot is an input of the region: its array is as the region found it. -/
theorem w10_oh : W10 m ρ c (Proc.devRef .tc main_v90) = OneHot.ohK (aBt m c) :=
  (W10_arr m ρ c 0).trans (((dat2 (V9 m ρ) c).arrAt_in 0 rfl _).trans ((A_eq2 (V9 m ρ) c 0).trans (w9_oh m ρ c)))

/-! ## The read-out -/

/-- The read-out as the tiled program spells it, over this program's own dimension records: the shared chain's `head`. -/
theorem head_mirror (sums : FVec Ideal S64x256 .f32) (cnt : FVec Ideal S64 .f32) (wl : FVec Ideal S256x10 .f32) (bl : FVec Ideal S10 .f32) :
    addf
        (Host.dotGeneral dot_S64x256_S256x10_S64x10_1_0_0_1_n_n none
          (Host.divf sums
            (broadcastInDim S64x256 ![0, 1] bcast_S64x1_S64x256_0_1
              (broadcastInDim S64x1 ![0] bcast_S64_S64x1_0 (maximumf cnt (broadcastInDim S64 ![] bcast_S_S64 (constant S_ .f32 0x3F800000#32))))))
          wl)
        (broadcastInDim S64x10 ![0, 1] bcast_S1x10_S64x10_0_1 (broadcastInDim S1x10 ![1] bcast_S10_S1x10_1 bl))
      = head sums cnt wl bl := rfl

/-- THE RESULT of the tiled program is the common value of the argument arrays: the one-hot product is the segment sum,
    the one-hot's column sums the counts. -/
theorem result : W11 m ρ c (Proc.devRef .tc main_v102)
    = G (aX m c) (aEi m c) (aBt m c) (aW1 m c) (aB1 m c) (aW2 m c) (aB2 m c) (aWl m c) (aBl m c) := by
  show StableHlo.after hostOps3 (W10 m ρ c) (Proc.devRef .tc main_v102) = _
  simp only [hostOps3]
  after_results_simp
  rw [w10_sums, w10_oh, w10_wl, w10_bl, OneHot.ohK_eq, Cert.Spec.ohmmS_ohS, OneHot.cntK_eq]
  exact head_mirror _ _ _ _

end Cert.KernelIdeal.KFold

end
-- ==== Proof.LibRowScatter.lean ====
/-
  Rows gathered and rows accumulated, read at an index.

  A node-feature table `x : [N, D]` and a list of `E` node ids `idx : [E, 1]`.
  • The row gather `x[idx]` (offset axis 1, collapsed axis 0, one start-index component, slice `[1, D]`) at entry
    `(e, c)` is `x` at row `idx e` — the id read as a signed integer and clamped into `[0, N − 1]` — and column `c`.
  • The accumulating scatter of update rows `upd : [E, D]` into `x : [R, D]` along axis 0 (window axis 1, inserted
    axis 0), over the extended reals, at entry `(i, c)` is `x (i, c)` plus the sum, over the edges `e` whose id read
    as a signed integer IS `i`, of `upd (e, c)`: an id outside `[0, R)` meets no row and its update is dropped.
  • The same with scalar updates `upd : [E]` into `x : [R]` (a count per segment).
  All three are generic in the extents.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

/-! ## The row gather -/

/-- The dimension numbers of `x[idx]` for `x : [N, D]`, `idx : [E, 1]`. -/
abbrev gatherRows (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row an id names in a table of `N` rows: read signed, clamped into `[0, N − 1]`. -/
def rowOf (N : Nat) (hN : 0 < N) {w : Nat} (i : BitVec w) : Fin N := ⟨min i.toInt.toNat (N - 1), by omega⟩

theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gatherRows N D E wf) x idx (ix2 e c) = x (ix2 (rowOf N hN (idx (ix2 e 0))) c) := by
  unfold Host.gather
  congr 1
  funext a
  refine Fin.ext ?_
  show (gatherRows N D E wf).start (ix2 e c) idx a + (gatherRows N D E wf).batchCoord (ix2 e c) a
    + (gatherRows N D E wf).offCoord (ix2 e c) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (gatherRows N D E wf).startIndexMap from List.mem_singleton.mpr rfl)]
    have hsi : (gatherRows N D E wf).siIdx (ix2 e c) ⟨List.idxOf (⟨0, h0⟩ : Fin 2) (gatherRows N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hns : (⟨1, h1⟩ : Fin 2) ∉ (gatherRows N D E wf).startIndexMap := fun h =>
      absurd (congrArg Fin.val (List.mem_singleton.mp h)) (show ¬ ((1 : ℕ) = 0) by decide)
    unfold GatherDims.start
    rw [dif_neg hns, Nat.zero_add]
    unfold GatherDims.offCoord
    have hk : (⟨1, h1⟩ : Fin 2) ∈ (gatherRows N D E wf).sKept :=
      (GatherDims.mem_sKept _ _).mpr ⟨fun h => absurd (congrArg Fin.val (List.mem_singleton.mp h)) (show ¬ ((1 : ℕ) = 0) by decide),
        List.not_mem_nil⟩
    rw [dif_pos hk]
    rfl

/-! ## The accumulating row scatter -/

/-- The dimension numbers of `x.at[idx].add(upd)` along axis 0 for `x : [R, D]`, `idx : [E, 1]`, `upd : [E, D]`. -/
abbrev scatterRows (R D E : Nat) (wf : ScatterDims.WF ⟨2, ![R, D]⟩ ⟨2, ![E, 1]⟩ ⟨2, ![E, D]⟩ [1] [0] [0] 1) :
    ScatterDims ⟨2, ![R, D]⟩ ⟨2, ![E, 1]⟩ ⟨2, ![E, D]⟩ where
  updateWindowDims := [1]
  insertedWindowDims := [0]
  scatterDimsToOperandDims := [0]
  indexVectorDim := 1
  wf := wf

section Rows
variable {R D E w : Nat} (wf : ScatterDims.WF ⟨2, ![R, D]⟩ ⟨2, ![E, 1]⟩ ⟨2, ![E, D]⟩ [1] [0] [0] 1)
  (idx : IVec ⟨2, ![E, 1]⟩ w) (e : Fin E) (c : Fin D)

/-- On the row axis the window of update `(e, c)` starts at edge `e`'s id, read signed. -/
theorem scatterRows_start0 (h0 : 0 < 2) : (scatterRows R D E wf).start (ix2 e c) idx ⟨0, h0⟩ = (idx (ix2 e 0)).toInt := by
  unfold ScatterDims.start
  rw [dif_pos (show (⟨0, h0⟩ : Fin 2) ∈ (scatterRows R D E wf).scatterDimsToOperandDims from List.mem_singleton.mpr rfl)]
  have hsi : (scatterRows R D E wf).siIdx (ix2 e c) ⟨List.idxOf (⟨0, h0⟩ : Fin 2) (scatterRows R D E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem scatterRows_start1 (h1 : 1 < 2) : (scatterRows R D E wf).start (ix2 e c) idx ⟨1, h1⟩ = 0 := by
  unfold ScatterDims.start
  rw [dif_neg (fun h => absurd (congrArg Fin.val (List.mem_singleton.mp h)) (show ¬ ((1 : ℕ) = 0) by decide))]

/-- The row axis is inserted: no window coordinate there. -/
theorem scatterRows_window0 (h0 : 0 < 2) : (scatterRows R D E wf).window (ix2 e c) ⟨0, h0⟩ = 0 := by
  unfold ScatterDims.window
  rw [dif_neg (fun h => (of_decide_eq_true (List.mem_filter.mp h).2) (List.mem_singleton.mpr rfl))]

/-- The column axis carries the update's column. -/
theorem scatterRows_window1 (h1 : 1 < 2) : (scatterRows R D E wf).window (ix2 e c) ⟨1, h1⟩ = c.val := by
  unfold ScatterDims.window
  have hk : (⟨1, h1⟩ : Fin 2) ∈ (scatterRows R D E wf).sKept :=
    List.mem_filter.mpr ⟨List.mem_finRange _, decide_eq_true (fun h =>
      absurd (congrArg Fin.val (List.mem_singleton.mp h)) (show ¬ ((1 : ℕ) = 0) by decide))⟩
  rw [dif_pos hk]
  rfl

/-- Update `(e, c)` lands on entry `(i, c')` exactly when edge `e`'s id, read signed, is `i` and the columns agree. -/
theorem scatterRows_resultIdx_iff (i : Fin R) (c' : Fin D) :
    (scatterRows R D E wf).resultIdx? (ix2 e c) idx = some (ix2 i c') ↔ (idx (ix2 e 0)).toInt = (i.val : ℤ) ∧ c = c' := by
  unfold ScatterDims.resultIdx?
  constructor
  · intro h
    split at h
    · next hall =>
      have h' := Option.some.inj h
      have e0 := congrArg (fun f => (f ⟨0, Nat.zero_lt_two⟩ : Fin _).val) h'
      have e1 := congrArg (fun f => (f ⟨1, Nat.one_lt_two⟩ : Fin _).val) h'
      simp only [scatterRows_start0, scatterRows_start1, scatterRows_window0, scatterRows_window1] at e0 e1
      have b0 := hall ⟨0, Nat.zero_lt_two⟩
      simp only [scatterRows_start0, scatterRows_window0] at b0
      refine ⟨?_, Fin.ext ?_⟩
      · have : ((idx (ix2 e 0)).toInt + ((0 : ℕ) : ℤ)).toNat = i.val := e0
        omega
      · have : ((0 : ℤ) + (c.val : ℤ)).toNat = c'.val := e1
        omega
    · exact absurd h (by simp)
  · rintro ⟨hi, rfl⟩
    have hall : ∀ a : Fin 2, 0 ≤ (scatterRows R D E wf).start (ix2 e c) idx a + (scatterRows R D E wf).window (ix2 e c) a
        ∧ (scatterRows R D E wf).start (ix2 e c) idx a + (scatterRows R D E wf).window (ix2 e c) a < (⟨2, ![R, D]⟩ : Shape).size a := by
      intro a
      match a with
      | ⟨0, h0⟩ =>
        rw [scatterRows_start0, scatterRows_window0, hi]
        have := i.isLt
        refine ⟨by omega, ?_⟩
        show (i.val : ℤ) + ((0 : ℕ) : ℤ) < (R : ℤ)
        omega
      | ⟨1, h1⟩ =>
        rw [scatterRows_start1, scatterRows_window1]
        have := c.isLt
        refine ⟨by omega, ?_⟩
        show (0 : ℤ) + (c.val : ℤ) < (D : ℤ)
        omega
    rw [dif_pos hall]
    congr 1
    funext a
    refine Fin.ext ?_
    match a with
    | ⟨0, h0⟩ =>
      show ((scatterRows R D E wf).start (ix2 e c) idx ⟨0, h0⟩ + (scatterRows R D E wf).window (ix2 e c) ⟨0, h0⟩).toNat = i.val
      rw [scatterRows_start0, scatterRows_window0, hi]; omega
    | ⟨1, h1⟩ =>
      show ((scatterRows R D E wf).start (ix2 e c) idx ⟨1, h1⟩ + (scatterRows R D E wf).window (ix2 e c) ⟨1, h1⟩).toNat = c.val
      rw [scatterRows_start1, scatterRows_window1]; omega

end Rows

/-- THE ACCUMULATING ROW SCATTER READ AT `(i, c)`, over the extended reals: the operand's entry plus the sum over the
    edges whose id, read signed, is `i` of the update row's entry in column `c`. -/
theorem scatterAdd_rows_apply {R D E w : Nat} (wf : ScatterDims.WF ⟨2, ![R, D]⟩ ⟨2, ![E, 1]⟩ ⟨2, ![E, D]⟩ [1] [0] [0] 1)
    (x : (⟨2, ![R, D]⟩ : Shape).Idx → EReal) (idx : IVec ⟨2, ![E, 1]⟩ w) (upd : (⟨2, ![E, D]⟩ : Shape).Idx → EReal)
    (i : Fin R) (c : Fin D) :
    Ideal.hostScatterAdd (scatterRows R D E wf) x idx upd (ix2 i c)
      = x (ix2 i c) + ∑ e : Fin E, if (idx (ix2 e 0)).toInt = (i.val : ℤ) then upd (ix2 e c) else 0 := by
  unfold Ideal.hostScatterAdd
  congr 1
  rw [Finset.sum_filter, sum_idx2]
  refine Finset.sum_congr rfl fun e _ => ?_
  simp only [scatterRows_resultIdx_iff]
  by_cases he : (idx (ix2 e 0)).toInt = (i.val : ℤ)
  · simp only [he, true_and, if_true]
    rw [Finset.sum_ite_eq' Finset.univ c (fun c' => upd (ix2 e c'))]
    simp
  · simp only [he, false_and, if_false, Finset.sum_const_zero]

/-! ## The accumulating scatter of scalars (a count per segment) -/

/-- The dimension numbers of `x.at[idx].add(upd)` for `x : [R]`, `idx : [E, 1]`, `upd : [E]`. -/
abbrev scatterSegs (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

section Segs
variable {R E w : Nat} (wf : ScatterDims.WF ⟨1, ![R]⟩ ⟨2, ![E, 1]⟩ ⟨1, ![E]⟩ [] [0] [0] 1)
  (idx : IVec ⟨2, ![E, 1]⟩ w) (e : Fin E)

theorem scatterSegs_start0 (h0 : 0 < 1) : (scatterSegs R E wf).start (ix1 e) idx ⟨0, h0⟩ = (idx (ix2 e 0)).toInt := by
  unfold ScatterDims.start
  rw [dif_pos (show (⟨0, h0⟩ : Fin 1) ∈ (scatterSegs R E wf).scatterDimsToOperandDims from List.mem_singleton.mpr rfl)]
  have hsi : (scatterSegs R E wf).siIdx (ix1 e) ⟨List.idxOf (⟨0, h0⟩ : Fin 1) (scatterSegs R E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatterSegs_window0 (h0 : 0 < 1) : (scatterSegs R E wf).window (ix1 e) ⟨0, h0⟩ = 0 := by
  unfold ScatterDims.window
  rw [dif_neg (fun h => (of_decide_eq_true (List.mem_filter.mp h).2) (List.mem_singleton.mpr rfl))]

/-- Update `e` lands on segment `i` exactly when edge `e`'s id, read signed, is `i`. -/
theorem scatterSegs_resultIdx_iff (i : Fin R) :
    (scatterSegs R E wf).resultIdx? (ix1 e) idx = some (ix1 i) ↔ (idx (ix2 e 0)).toInt = (i.val : ℤ) := by
  unfold ScatterDims.resultIdx?
  constructor
  · intro h
    split at h
    · next hall =>
      have h' := Option.some.inj h
      have e0 := congrArg (fun f => (f ⟨0, Nat.zero_lt_one⟩ : Fin _).val) h'
      simp only [scatterSegs_start0, scatterSegs_window0] at e0
      have b0 := hall ⟨0, Nat.zero_lt_one⟩
      simp only [scatterSegs_start0, scatterSegs_window0] at b0
      have : ((idx (ix2 e 0)).toInt + ((0 : ℕ) : ℤ)).toNat = i.val := e0
      omega
    · exact absurd h (by simp)
  · intro hi
    have hall : ∀ a : Fin 1, 0 ≤ (scatterSegs R E wf).start (ix1 e) idx a + (scatterSegs R E wf).window (ix1 e) a
        ∧ (scatterSegs R E wf).start (ix1 e) idx a + (scatterSegs R E wf).window (ix1 e) a < (⟨1, ![R]⟩ : Shape).size a := by
      intro a
      match a with
      | ⟨0, h0⟩ =>
        rw [scatterSegs_start0, scatterSegs_window0, hi]
        have := i.isLt
        refine ⟨by omega, ?_⟩
        show (i.val : ℤ) + ((0 : ℕ) : ℤ) < (R : ℤ)
        omega
    rw [dif_pos hall]
    congr 1
    funext a
    refine Fin.ext ?_
    match a with
    | ⟨0, h0⟩ =>
      show ((scatterSegs R E wf).start (ix1 e) idx ⟨0, h0⟩ + (scatterSegs R E wf).window (ix1 e) ⟨0, h0⟩).toNat = i.val
      rw [scatterSegs_start0, scatterSegs_window0, hi]; omega

end Segs

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => congrArg f (eq_ix1 i))

/-- THE ACCUMULATING SCALAR SCATTER READ AT SEGMENT `i`, over the extended reals: the operand's entry plus the sum over
    the edges whose id, read signed, is `i` of the update's entry. -/
theorem scatterAdd_segs_apply {R E w : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal) (i : Fin R) :
    Ideal.hostScatterAdd (scatterSegs R E wf) x idx upd (ix1 i)
      = x (ix1 i) + ∑ e : Fin E, if (idx (ix2 e 0)).toInt = (i.val : ℤ) then upd (ix1 e) else 0 := by
  unfold Ideal.hostScatterAdd
  congr 1
  rw [Finset.sum_filter, sum_idx1]
  refine Finset.sum_congr rfl fun e _ => ?_
  simp only [scatterSegs_resultIdx_iff]

end Idealize.ShloMosaic.RowScatter

end
-- ==== Proof.RefBridge.lean ====
/-
  The plain program's four operations that the tiled program computes another way, read as the pure specifications:
  the two dense products, the segment sum of the rows by graph id, and the count of rows per graph id.
-/
import proofs.«431211_j9079560864488_1_alg».proof.ReferenceIdeal
import proofs.«431211_j9079560864488_1_alg».proof.Proof.Spec
import proofs.«431211_j9079560864488_1_alg».proof.Proof.LibRowScatter
import Idealize.ShloMosaic.PureOps.Ideal.Laws
import Idealize.ShloMosaic.Lib.Pipeline.Value
import Idealize.ShloMosaic.Lib.IdealHost
import Idealize.ShloMosaic.Lib.StackMember

noncomputable section

namespace Cert.ReferenceIdeal.Bridge

open Cert.ReferenceIdeal Cert.ReferenceIdeal.Facts₀ Idealize.ShloMosaic Idealize.ShloMosaic.ValueIdx

variable [Facts]

/-- The ids written as a column: entry `(e, 0)` of the column is id `e`. -/
theorem idCol_apply (b : IVec S40000 32) (e : Fin 40000) :
    broadcastInDim S40000x1 ![0] bcast_S40000_S40000x1_0 b (ix2 e 0) = b (ix1 e) := by
  refine broadcastInDim_apply _ _ b (ix2 e 0) (ix1 e) fun a => ?_
  match a with
  | ⟨0, _⟩ => rfl

/-- x · W1 on the host is rows times columns. -/
theorem dot1_eq (x : FVec Ideal S40000x128 .f32) (w : FVec Ideal S128x256 .f32) :
    Host.dotGeneral dot_S40000x128_S128x256_S40000x256_1_0_0_1_n_n none x w = Cert.Spec.mmS x w := by
  funext j
  obtain ⟨r, q, rfl⟩ : ∃ (r : Fin 40000) (q : Fin 256), j = ix2 r q := ⟨j 0, j 1, eq_ix2 j⟩
  rw [Cert.Spec.mmS_apply]
  -- the record has the fields of the plain rows-by-columns product
  exact StackMember.dotGeneral_plain_apply (m := 40000) (k := 128) (n := 256) none x w r q

/-- h · W2 on the host is rows times columns. -/
theorem dot2_eq (x : FVec Ideal S40000x256 .f32) (w : FVec Ideal S256x256 .f32) :
    Host.dotGeneral dot_S40000x256_S256x256_S40000x256_1_0_0_1_n_n none x w = Cert.Spec.mmS x w := by
  funext j
  obtain ⟨r, q, rfl⟩ : ∃ (r : Fin 40000) (q : Fin 256), j = ix2 r q := ⟨j 0, j 1, eq_ix2 j⟩
  rw [Cert.Spec.mmS_apply]
  exact StackMember.dotGeneral_plain_apply (m := 40000) (k := 256) (n := 256) none x w r q

/-- The rows of `h` accumulated into zeros at their graph ids: the segment sum. -/
theorem pool_eq (b : IVec S40000 32) (h : FVec Ideal S40000x256 .f32) :
    Host.scatterAdd scatter_S64x256_S40000x1_S40000x256_1_0_0_1 (broadcastInDim S64x256 ![] bcast_S_S64x256 (constant S_ .f32 0x00000000#32)) (broadcastInDim S40000x1 ![0] bcast_S40000_S40000x1_0 b) h
      = Cert.Spec.poolS b h := by
  funext j
  obtain ⟨g, q, rfl⟩ : ∃ (g : Fin 64) (q : Fin 256), j = ix2 g q := ⟨j 0, j 1, eq_ix2 j⟩
  rw [Cert.Spec.poolS_apply]
  -- entry (g, q): the zero it starts from plus the rows whose id reads g
  refine (RowScatter.scatterAdd_rows_apply (R := 64) (D := 256) (E := 40000)
    scatter_S64x256_S40000x1_S40000x256_1_0_0_1_wf _ _ h g q).trans ?_
  rw [broadcastInDim_scalar_apply, constant_apply, Ideal.ofBits_zero_f32, zero_add]
  refine Finset.sum_congr rfl fun e _ => ?_
  rw [idCol_apply]

/-- Ones accumulated into zeros at the graph ids: the count per graph. -/
theorem cnt_eq (b : IVec S40000 32) :
    Host.scatterAdd (F := Ideal) scatter_S64_S40000x1_S40000_n_0_0_1 (broadcastInDim S64 ![] bcast_S_S64 (constant S_ .f32 0x00000000#32)) (broadcastInDim S40000x1 ![0] bcast_S40000_S40000x1_0 b) (broadcastInDim S40000 ![] bcast_S_S40000 (constant S_ .f32 0x3F800000#32))
      = (Cert.Spec.cntS b : FVec Ideal S64 .f32) := by
  funext j
  obtain ⟨g, rfl⟩ : ∃ g : Fin 64, j = ix1 g := ⟨j 0, eq_ix1 j⟩
  rw [Cert.Spec.cntS_apply]
  -- segment g: the zero it starts from plus a one for each row whose id reads g
  refine (RowScatter.scatterAdd_segs_apply (R := 64) (E := 40000)
    scatter_S64_S40000x1_S40000_n_0_0_1_wf _ _ _ g).trans ?_
  rw [broadcastInDim_scalar_apply, constant_apply, Ideal.ofBits_zero_f32, zero_add]
  refine Finset.sum_congr rfl fun e _ => ?_
  rw [idCol_apply, broadcastInDim_scalar_apply, constant_apply, Ideal.ofBits_one_f32]

end Cert.ReferenceIdeal.Bridge

end
-- ==== Proof.RefRun.lean ====
/-
  The plain program's result as the shared chain applied to its own dense products, segment sum and count, and from
  there as the common value `G`: the chain over the pure specifications.
-/
import proofs.«431211_j9079560864488_1_alg».proof.Proof.Gen.ReferenceIdeal.Run
import proofs.«431211_j9079560864488_1_alg».proof.Proof.Chain
import proofs.«431211_j9079560864488_1_alg».proof.Proof.Spec
import proofs.«431211_j9079560864488_1_alg».proof.Proof.RefBridge

noncomputable section

namespace Cert.ReferenceIdeal.RefRun

open Cert.ReferenceIdeal Cert.ReferenceIdeal.Facts₀ Cert.ReferenceIdeal.Chain Idealize.ShloMosaic Idealize.ShloMosaic.TcCoe Idealize.SL.Sem

variable (m : (ℓ : Loc nD τ sig) → Buf (Elt Ideal) ℓ) (c : Dev nD)

/-- The argument arrays as launched, each at its literal type. -/
abbrev aX : FVec Ideal S40000x128 .f32 := m ((c.tc : Thread nD τ).loc main_arg0)
abbrev aEi : IVec S2x640000 32 := m ((c.tc : Thread nD τ).loc main_arg1)
abbrev aBt : IVec S40000 32 := m ((c.tc : Thread nD τ).loc main_arg2)
abbrev aW1 : FVec Ideal S128x256 .f32 := m ((c.tc : Thread nD τ).loc main_arg3)
abbrev aB1 : FVec Ideal S256 .f32 := m ((c.tc : Thread nD τ).loc main_arg4)
abbrev aW2 : FVec Ideal S256x256 .f32 := m ((c.tc : Thread nD τ).loc main_arg5)
abbrev aB2 : FVec Ideal S256 .f32 := m ((c.tc : Thread nD τ).loc main_arg6)
abbrev aWl : FVec Ideal S256x10 .f32 := m ((c.tc : Thread nD τ).loc main_arg7)
abbrev aBl : FVec Ideal S10 .f32 := m ((c.tc : Thread nD τ).loc main_arg8)

set_option maxRecDepth 8192 in
/-- The run's composed term is the chain over the host's own products and accumulating scatters. -/
theorem res_eq :
    Value.res_main_v122 (F := Ideal) m c
      = head
          (Host.scatterAdd scatter_S64x256_S40000x1_S40000x256_1_0_0_1 (broadcastInDim S64x256 ![] bcast_S_S64x256 (constant S_ .f32 0x00000000#32))
            (broadcastInDim S40000x1 ![0] bcast_S40000_S40000x1_0 (aBt m c))
            (conv (Host.dotGeneral dot_S40000x256_S256x256_S40000x256_1_0_0_1_n_n none
                (conv (Host.dotGeneral dot_S40000x128_S128x256_S40000x256_1_0_0_1_n_n none (aX m c) (aW1 m c)) (aEi m c) (aB1 m c))
                (aW2 m c))
              (aEi m c) (aB2 m c)))
          (Host.scatterAdd (F := Ideal) scatter_S64_S40000x1_S40000_n_0_0_1 (broadcastInDim S64 ![] bcast_S_S64 (constant S_ .f32 0x00000000#32))
            (broadcastInDim S40000x1 ![0] bcast_S40000_S40000x1_0 (aBt m c))
            (broadcastInDim S40000 ![] bcast_S_S40000 (constant S_ .f32 0x3F800000#32)))
          (aWl m c) (aBl m c) := by
  unfold Value.res_main_v122 head conv normE dis wrapCol srcIds dstIds
  rfl

/-- … which is the common value of the argument arrays. -/
theorem res_eq_G :
    Value.res_main_v122 (F := Ideal) m c
      = G (aX m c) (aEi m c) (aBt m c) (aW1 m c) (aB1 m c) (aW2 m c) (aB2 m c) (aWl m c) (aBl m c) := by
  rw [res_eq, Bridge.dot1_eq, Bridge.dot2_eq, Bridge.pool_eq, Bridge.cnt_eq]
  rfl

end Cert.ReferenceIdeal.RefRun

end
-- ==== Proof.lean ====
/-
  The certificate of a two-layer graph convolution network with mean pooling, tiled for the matrix unit, against the
  plain program.

  THE TWO PROGRAMS. Both append a self loop to every node, weight each edge by 1/sqrt(deg) at its two ends, and run
  two layers "dense product, weighted rows gathered at the sources and summed at the targets, bias, clamp at zero";
  both then average the node rows per graph id and apply a last dense product with its bias. The tiled program
  computes the two big dense products in ten row blocks of 4000 rows each (a product's row block only reads that
  block's rows of the left factor, and the contraction is never split), and the per-graph sums as the product of the
  TRANSPOSED ONE-HOT of the graph ids with the node rows, accumulated over ten blocks of rows into a block that stays
  resident; its counts are the one-hot's column sums. The plain program computes the sums and the counts by an
  accumulating scatter at the graph ids.

  WHY THEY AGREE over the extended reals. A change of float format is the identity. Multiplying by the one-hot selects:
  0 · y = 0 and 1 · y = y at EVERY extended real, the infinities included, so the one-hot product summed over all rows is
  the sum of the rows whose id is that graph; an id outside 0 … 63 matches no column of the one-hot and is dropped by the
  scatter alike. Sums over the extended reals may be regrouped and reordered freely (addition is commutative and
  associative there), so the ten partial sums add up to the whole. Nothing needs the inputs to be finite: the
  precondition is never opened. Everything else — the id lists, the weights, the gathers, the scatters of the two
  layers, the read-out — is the same host computation in both programs, carried as one chain of functions
  (Proof/Chain.lean) and never opened.

  THE PARTS. Proof/Spec.lean: the pure specifications (rows × columns, segment sum, count, one-hot). Proof/R0Value,
  R1Value, R2Value: what each region leaves in its output array. Proof/KFold, KFoldB, KFoldC: the tiled program's result read
  back through the run to the arguments. Proof/KRun.lean: the run with the result buffer named. Proof/RefBridge,
  Proof/RefRun: the plain program's result as the same value. The ideal pass rewrote nothing, so `preserves` is trivial.
-/
import proofs.«431211_j9079560864488_1_alg».proof.Defs
import proofs.«431211_j9079560864488_1_alg».proof.Proof.Gen.Kernel
import proofs.«431211_j9079560864488_1_alg».proof.Proof.Gen.Kernel.Skeleton
import proofs.«431211_j9079560864488_1_alg».proof.Proof.Gen.Kernel.Launch
import proofs.«431211_j9079560864488_1_alg».proof.Proof.Gen.Kernel.Points
import proofs.«431211_j9079560864488_1_alg».proof.Proof.Gen.Kernel.Frame
import proofs.«431211_j9079560864488_1_alg».proof.Proof.Gen.KernelIdeal
import proofs.«431211_j9079560864488_1_alg».proof.Proof.Gen.KernelIdeal.Skeleton
import proofs.«431211_j9079560864488_1_alg».proof.Proof.Gen.KernelIdeal.Launch
import proofs.«431211_j9079560864488_1_alg».proof.Proof.Gen.KernelIdeal.Points
import proofs.«431211_j9079560864488_1_alg».proof.Proof.Gen.KernelIdeal.Frame
import proofs.«431211_j9079560864488_1_alg».proof.Proof.Gen.ReferenceIdeal
import proofs.«431211_j9079560864488_1_alg».proof.Proof.Gen.ReferenceIdeal.Run
import proofs.«431211_j9079560864488_1_alg».proof.Proof.Gen.Pre_finite_inputs
import proofs.«431211_j9079560864488_1_alg».proof.Proof.KRun
import proofs.«431211_j9079560864488_1_alg».proof.Proof.KFoldC
import proofs.«431211_j9079560864488_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and leaves its arguments. -/
theorem frame_p : Cert.frame_Kernel := fun m ρ _ => Cert.Kernel.Gen.frame m ρ

/-- So does the tiled program read over the extended reals. -/
theorem frame_pi : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the common value of the argument arrays. -/
theorem algebraic : Cert.algebraic_KernelIdeal_ReferenceIdeal := by
  intro m ρ m' ρ' _ hagree
  refine ⟨fun c => Cert.ReferenceIdeal.Chain.G (Cert.KernelIdeal.KFold.aX m c) (Cert.KernelIdeal.KFold.aEi m c) (Cert.KernelIdeal.KFold.aBt m c)
      (Cert.KernelIdeal.KFold.aW1 m c) (Cert.KernelIdeal.KFold.aB1 m c) (Cert.KernelIdeal.KFold.aW2 m c) (Cert.KernelIdeal.KFold.aB2 m c)
      (Cert.KernelIdeal.KFold.aWl m c) (Cert.KernelIdeal.KFold.aBl m c), ?_, ?_⟩
  · exact (θ_run Cert.KernelIdeal.defs _ _).mono
      (fun _ h c => ⟨(h c).1.trans (Cert.KernelIdeal.KFold.result m ρ c), (h c).2⟩) (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefRun.res_eq_G m' c).trans ?_
    obtain ⟨h0, h1, h2, h3, h4, h5, h6, h7, h8⟩ := hagree c
    dsimp only [Cert.ReferenceIdeal.RefRun.aX, Cert.ReferenceIdeal.RefRun.aEi, Cert.ReferenceIdeal.RefRun.aBt, Cert.ReferenceIdeal.RefRun.aW1,
      Cert.ReferenceIdeal.RefRun.aB1, Cert.ReferenceIdeal.RefRun.aW2, Cert.ReferenceIdeal.RefRun.aB2, Cert.ReferenceIdeal.RefRun.aWl,
      Cert.ReferenceIdeal.RefRun.aBl]
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
